-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2 : Shape := ⟨3, ![8, 2048, 2]⟩
abbrev S8x2048x64 : Shape := ⟨3, ![8, 2048, 64]⟩
abbrev S8x32 : Shape := ⟨2, ![8, 32]⟩
abbrev S64x1 : Shape := ⟨2, ![64, 1]⟩
abbrev S2 : Shape := ⟨1, ![2]⟩
abbrev S_ : Shape := ⟨0, ![]⟩

class Facts : Prop where
  bcast_S_S8x2048x2 : S_.BroadcastsInDim S8x2048x2 (![] : Fin 0 → Fin S8x2048x2.rank)
  reducesTo_S8x2048x2_S_d0_1_2 : S8x2048x2.ReducesTo [0, 1, 2] S_
  h_S_ : 0 < S_.numel
  bcast_S_S8x2048x64 : S_.BroadcastsInDim S8x2048x64 (![] : Fin 0 → Fin S8x2048x64.rank)
  reducesTo_S8x2048x64_S_d0_1_2 : S8x2048x64.ReducesTo [0, 1, 2] S_
  bcast_S_S8x32 : S_.BroadcastsInDim S8x32 (![] : Fin 0 → Fin S8x32.rank)
  reducesTo_S8x32_S_d0_1 : S8x32.ReducesTo [0, 1] S_
  bcast_S_S64x1 : S_.BroadcastsInDim S64x1 (![] : Fin 0 → Fin S64x1.rank)
  reducesTo_S64x1_S_d0_1 : S64x1.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S8x2048x2 .f32) (main_arg1 : FVec F S8x2048x64 .f32) (main_arg2 : FVec F S8x32 .f32) (main_arg3 : FVec F S64x1 .f32) (main_arg4 : FVec F S2 .f32) : IVec S_ 1 :=
  let main_v0 : FVec F S8x2048x2 .f32 := Host.absf main_arg0
  let main_cst : FVec F S_ .f32 := constant S_ .f32 0x7F800000#32
  let main_v1 : FVec F S8x2048x2 .f32 := broadcastInDim S8x2048x2 ![] bcast_S_S8x2048x2 main_cst
  let main_v2 : IVec S8x2048x2 1 := cmpf .olt main_v0 main_v1
  let main_c : IVec S_ 1 := constantI S_ 1 1#1
  let main_v3 : IVec S_ 1 := (fun x v => Host.reduce IntOp.andi x v reducesTo_S8x2048x2_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x32 .f32 := Host.absf main_arg2
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S8x2048x2 : Shape := ⟨3, ![8, 2048, 2]⟩
abbrev S8x2048x64 : Shape := ⟨3, ![8, 2048, 64]⟩
abbrev S8x32 : Shape := ⟨2, ![8, 32]⟩
abbrev S64x1 : Shape := ⟨2, ![64, 1]⟩
abbrev S2 : Shape := ⟨1, ![2]⟩
abbrev S_ : Shape := ⟨0, ![]⟩
abbrev S1 : Shape := ⟨1, ![1]⟩
abbrev S8x32x1 : Shape := ⟨3, ![8, 32, 1]⟩
abbrev S64 : Shape := ⟨1, ![64]⟩
abbrev S1x1x2 : Shape := ⟨3, ![1, 1, 2]⟩
abbrev S8x2x2048 : Shape := ⟨3, ![8, 2, 2048]⟩
abbrev S1x8x1 : Shape := ⟨3, ![1, 8, 1]⟩
abbrev S1x2x2048 : Shape := ⟨3, ![1, 2, 2048]⟩
abbrev S1x2048x64 : Shape := ⟨3, ![1, 2048, 64]⟩
abbrev S1x512x64 : Shape := ⟨3, ![1, 512, 64]⟩
abbrev S8x1 : Shape := ⟨2, ![8, 1]⟩
abbrev S1x1x2048 : Shape := ⟨3, ![1, 1, 2048]⟩
abbrev S1x2048 : Shape := ⟨2, ![1, 2048]⟩
abbrev S8x2048 : Shape := ⟨2, ![8, 2048]⟩
abbrev S64x2048 : Shape := ⟨2, ![64, 2048]⟩
abbrev S8x1x2048 : Shape := ⟨3, ![8, 1, 2048]⟩
abbrev S1x64x2048 : Shape := ⟨3, ![1, 64, 2048]⟩
abbrev S8x64x2048 : Shape := ⟨3, ![8, 64, 2048]⟩
abbrev S512x2048 : Shape := ⟨2, ![512, 2048]⟩
abbrev S2048x64 : Shape := ⟨2, ![2048, 64]⟩
abbrev S512x64 : Shape := ⟨2, ![512, 64]⟩
abbrev S1x1x64x1 : Shape := ⟨4, ![1, 1, 64, 1]⟩
abbrev S8x32x64x1 : Shape := ⟨4, ![8, 32, 64, 1]⟩
abbrev S8x32x1x1 : Shape := ⟨4, ![8, 32, 1, 1]⟩
abbrev S8x32x64x2 : Shape := ⟨4, ![8, 32, 64, 2]⟩
abbrev S8x32x64x64 : Shape := ⟨4, ![8, 32, 64, 64]⟩

abbrev nBuf : Space → Nat
  | .hbm => 53
  | .vmem => 9
  | .smem => 0
  | _ => 0

abbrev bufTy : (tb : Table) → Fin (tcTables nBuf tb) → BufTy
  | .hbm, ⟨0, _⟩ => ⟨S8x2048x2, .f32⟩
  | .hbm, ⟨1, _⟩ => ⟨S8x2048x64, .f32⟩
  | .hbm, ⟨2, _⟩ => ⟨S8x32, .f32⟩
  | .hbm, ⟨3, _⟩ => ⟨S64x1, .f32⟩
  | .hbm, ⟨4, _⟩ => ⟨S2, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .f32⟩
  | .hbm, ⟨10, _⟩ => ⟨S2, .i1⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S2, .f32⟩
  | .hbm, ⟨19, _⟩ => ⟨S_, .f32⟩
  | .hbm, ⟨20, _⟩ => ⟨S2, .f32⟩
  | .hbm, ⟨21, _⟩ => ⟨S2, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2, .f32⟩
  | .hbm, ⟨26, _⟩ => ⟨S2, .f32⟩
  | .hbm, ⟨27, _⟩ => ⟨S_, .f32⟩
  | .hbm, ⟨28, _⟩ => ⟨S2, .f32⟩
  | .hbm, ⟨29, _⟩ => ⟨S2, .f32⟩
  | .hbm, ⟨30, _⟩ => ⟨S1, .f32⟩
  | .hbm, ⟨31, _⟩ => ⟨S_, .f32⟩
  | .hbm, ⟨32, _⟩ => ⟨S8x32, .f32⟩
  | .hbm, ⟨33, _⟩ => ⟨S8x32, .f32⟩
  | .hbm, ⟨34, _⟩ => ⟨S8x32x1, .f32⟩
  | .hbm, ⟨35, _⟩ => ⟨S64, .f32⟩
  | .hbm, ⟨36, _⟩ => ⟨S1, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S1x1x2, .f32⟩
  | .hbm, ⟨42, _⟩ => ⟨S8x2048x2, .f32⟩
  | .hbm, ⟨43, _⟩ => ⟨S8x2048x2, .f32⟩
  | .hbm, ⟨44, _⟩ => ⟨S8x2x2048, .f32⟩
  | .hbm, ⟨45, _⟩ => ⟨S8x2048x64, .bf16⟩
  | .hbm, ⟨46, _⟩ => ⟨S8x2048x64, .f32⟩
  | .hbm, ⟨47, _⟩ => ⟨S1x1x64x1, .f32⟩
  | .hbm, ⟨48, _⟩ => ⟨S8x32x64x1, .f32⟩
  | .hbm, ⟨49, _⟩ => ⟨S8x32x1x1, .f32⟩
  | .hbm, ⟨50, _⟩ => ⟨S8x32x64x1, .f32⟩
  | .hbm, ⟨51, _⟩ => ⟨S8x32x64x2, .f32⟩
  | .hbm, ⟨52, _⟩ => ⟨S8x32x64x64, .f32⟩
  | .local _ .vmem, ⟨0, _⟩ => ⟨S1x8x1, .f32⟩
  | .local _ .vmem, ⟨1, _⟩ => ⟨S1x8x1, .f32⟩
  | .local _ .vmem, ⟨2, _⟩ => ⟨S64x1, .f32⟩
  | .local _ .vmem, ⟨3, _⟩ => ⟨S1x2x2048, .f32⟩
  | .local _ .vmem, ⟨4, _⟩ => ⟨S1x2x2048, .f32⟩
  | .local _ .vmem, ⟨5, _⟩ => ⟨S1x2048x64, .bf16⟩
  | .local _ .vmem, ⟨6, _⟩ => ⟨S1x2048x64, .bf16⟩
  | .local _ .vmem, ⟨7, _⟩ => ⟨S1x512x64, .f32⟩
  | .local _ .vmem, ⟨8, _⟩ => ⟨S1x512x64, .f32⟩
  | _, _ => ⟨S8x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S2 : S_.BroadcastsInDim S2 (![] : Fin 0 → Fin S2.rank)
  slices_S2_S1_0 : S2.Slices ![0] S1
  shapeCasts_S1_S_ : S1.ShapeCasts S_
  bcast_S_S8x32 : S_.BroadcastsInDim S8x32 (![] : Fin 0 → Fin S8x32.rank)
  bcast_S8x32_S8x32x1_0_1 : S8x32.BroadcastsInDim S8x32x1 (![0, 1] : Fin 2 → Fin S8x32x1.rank)
  shapeCasts_S64x1_S64 : S64x1.ShapeCasts S64
  slices_S2_S1_1 : S2.Slices ![1] S1
  bcast_S_S64 : S_.BroadcastsInDim S64 (![] : Fin 0 → Fin S64.rank)
  bcast_S64_S64x1_0 : S64.BroadcastsInDim S64x1 (![0] : Fin 1 → Fin S64x1.rank)
  bcast_S2_S1x1x2_2 : S2.BroadcastsInDim S1x1x2 (![2] : Fin 1 → Fin S1x1x2.rank)
  bcast_S1x1x2_S8x2048x2_0_1_2 : S1x1x2.BroadcastsInDim S8x2048x2 (![0, 1, 2] : Fin 3 → Fin S8x2048x2.rank)
  transposes_S8x2048x2_S8x2x2048_0_2_1 : S8x2048x2.Transposes [0, 2, 1] S8x2x2048
  bitsLt_bf16_f32 : FTy.bits .bf16 < FTy.bits .f32
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x2x2048_S1x1x2048_0_0_0 : ∀ a, (![0, 0, 0] : Fin 3 → Nat) a + S1x1x2048.size a ≤ S1x2x2048.size a
  h_S1x1x2048 : 0 < S1x1x2048.numel
  shapeCasts_S1x1x2048_S1x2048 : S1x1x2048.ShapeCasts S1x2048
  inb_S1x2x2048_S1x1x2048_0_1_0 : ∀ a, (![0, 1, 0] : Fin 3 → Nat) a + S1x1x2048.size a ≤ S1x2x2048.size a
  broadcasts_S8x1_S8x2048 : S8x1.Broadcasts S8x2048
  broadcasts_S1x2048_S8x2048 : S1x2048.Broadcasts S8x2048
  broadcasts_S64x1_S64x2048 : S64x1.Broadcasts S64x2048
  broadcasts_S1x2048_S64x2048 : S1x2048.Broadcasts S64x2048
  shapeCasts_S8x2048_S8x1x2048 : S8x2048.ShapeCasts S8x1x2048
  shapeCasts_S64x2048_S1x64x2048 : S64x2048.ShapeCasts S1x64x2048
  broadcasts_S8x1x2048_S8x64x2048 : S8x1x2048.Broadcasts S8x64x2048
  broadcasts_S1x64x2048_S8x64x2048 : S1x64x2048.Broadcasts S8x64x2048
  shapeCasts_S8x64x2048_S512x2048 : S8x64x2048.ShapeCasts S512x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  bcast_S64x1_S1x1x64x1_2_3 : S64x1.BroadcastsInDim S1x1x64x1 (![2, 3] : Fin 2 → Fin S1x1x64x1.rank)
  bcast_S1x1x64x1_S8x32x64x1_0_1_2_3 : S1x1x64x1.BroadcastsInDim S8x32x64x1 (![0, 1, 2, 3] : Fin 4 → Fin S8x32x64x1.rank)
  bcast_S8x32_S8x32x1x1_0_1 : S8x32.BroadcastsInDim S8x32x1x1 (![0, 1] : Fin 2 → Fin S8x32x1x1.rank)
  bcast_S8x32x1x1_S8x32x64x1_0_1_2_3 : S8x32x1x1.BroadcastsInDim S8x32x64x1 (![0, 1, 2, 3] : Fin 4 → Fin S8x32x64x1.rank)
  concatenates_S8x32x64x1_S8x32x64x1_S8x32x64x2_d3 : Shape.Concatenates [S8x32x64x1, S8x32x64x1] S8x32x64x2 3
  shapeCasts_S8x2048x64_S8x32x64x64 : S8x2048x64.ShapeCasts S8x32x64x64
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1.size a ≤ S8x32x1.size a
  hwx0_0 : ∀ i : grid0.Coords, EltTy.bits .f32 = 32 ∨ (Rect.block (s := S8x32x1) S1x8x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x2048.size a ≤ S8x2x2048.size a
  hwx0_2 : ∀ i : grid0.Coords, EltTy.bits .f32 = 32 ∨ (Rect.block (s := S8x2x2048) S1x2x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S8x2048x64.size a
  hwx0_3 : ∀ i : grid0.Coords, EltTy.bits .bf16 = 32 ∨ (Rect.block (s := S8x2048x64) S1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x2048x64.size a
  hwx0_4 : ∀ i : grid0.Coords, EltTy.bits .f32 = 32 ∨ (Rect.block (s := S8x2048x64) S1x512x64.size (cc0_transform_4 i) (hinb0_4 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v13) S1x8x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x2x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x2 : Shape := ⟨3, ![8, 2048, 2]⟩
abbrev S8x2048x64 : Shape := ⟨3, ![8, 2048, 64]⟩
abbrev S8x32 : Shape := ⟨2, ![8, 32]⟩
abbrev S64x1 : Shape := ⟨2, ![64, 1]⟩
abbrev S2 : Shape := ⟨1, ![2]⟩
abbrev S_ : Shape := ⟨0, ![]⟩
abbrev S1x1x64x1 : Shape := ⟨4, ![1, 1, 64, 1]⟩
abbrev S8x32x64x1 : Shape := ⟨4, ![8, 32, 64, 1]⟩
abbrev S8x32x1 : Shape := ⟨3, ![8, 32, 1]⟩
abbrev S8x32x64 : Shape := ⟨3, ![8, 32, 64]⟩
abbrev S8x32x64x0 : Shape := ⟨4, ![8, 32, 64, 0]⟩
abbrev S8x32x64x2 : Shape := ⟨4, ![8, 32, 64, 2]⟩
abbrev S8x2048x1x2 : Shape := ⟨4, ![8, 2048, 1, 2]⟩
abbrev S8x1x2048x2 : Shape := ⟨4, ![8, 1, 2048, 2]⟩
abbrev S8x2048x2048x2 : Shape := ⟨4, ![8, 2048, 2048, 2]⟩
abbrev S1x1x1x2 : Shape := ⟨4, ![1, 1, 1, 2]⟩
abbrev S8x2048x2048 : Shape := ⟨3, ![8, 2048, 2048]⟩
abbrev S8x32x64x64 : Shape := ⟨4, ![8, 32, 64, 64]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x2, .f32⟩
  | .hbm, ⟨1, _⟩ => ⟨S8x2048x64, .f32⟩
  | .hbm, ⟨2, _⟩ => ⟨S8x32, .f32⟩
  | .hbm, ⟨3, _⟩ => ⟨S64x1, .f32⟩
  | .hbm, ⟨4, _⟩ => ⟨S2, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .f32⟩
  | .hbm, ⟨10, _⟩ => ⟨S2, .i1⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S2, .f32⟩
  | .hbm, ⟨19, _⟩ => ⟨S_, .f32⟩
  | .hbm, ⟨20, _⟩ => ⟨S2, .f32⟩
  | .hbm, ⟨21, _⟩ => ⟨S2, .f32⟩
  | .hbm, ⟨22, _⟩ => ⟨S1x1x64x1, .f32⟩
  | .hbm, ⟨23, _⟩ => ⟨S8x32x64x1, .f32⟩
  | .hbm, ⟨24, _⟩ => ⟨S8x32x1, .f32⟩
  | .hbm, ⟨25, _⟩ => ⟨S8x32x64, .f32⟩
  | .hbm, ⟨26, _⟩ => ⟨S8x32x64x0, .f32⟩
  | .hbm, ⟨27, _⟩ => ⟨S8x32x64x1, .f32⟩
  | .hbm, ⟨28, _⟩ => ⟨S8x32x64x2, .f32⟩
  | .hbm, ⟨29, _⟩ => ⟨S8x2048x2, .f32⟩
  | .hbm, ⟨30, _⟩ => ⟨S8x2048x1x2, .f32⟩
  | .hbm, ⟨31, _⟩ => ⟨S8x1x2048x2, .f32⟩
  | .hbm, ⟨32, _⟩ => ⟨S8x2048x2048x2, .f32⟩
  | .hbm, ⟨33, _⟩ => ⟨S8x2048x2048x2, .f32⟩
  | .hbm, ⟨34, _⟩ => ⟨S8x2048x2048x2, .f32⟩
  | .hbm, ⟨35, _⟩ => ⟨S8x2048x2048x2, .f32⟩
  | .hbm, ⟨36, _⟩ => ⟨S2, .f32⟩
  | .hbm, ⟨37, _⟩ => ⟨S1x1x1x2, .f32⟩
  | .hbm, ⟨38, _⟩ => ⟨S8x2048x2048x2, .f32⟩
  | .hbm, ⟨39, _⟩ => ⟨S8x2048x2048x2, .f32⟩
  | .hbm, ⟨40, _⟩ => ⟨S_, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x64, .f32⟩
  | .hbm, ⟨47, _⟩ => ⟨S8x32x64x64, .f32⟩
  | _, _ => ⟨S8x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S64x1_S1x1x64x1_2_3 : S64x1.BroadcastsInDim S1x1x64x1 (![2, 3] : Fin 2 → Fin S1x1x64x1.rank)
  bcast_S1x1x64x1_S8x32x64x1_0_1_2_3 : S1x1x64x1.BroadcastsInDim S8x32x64x1 (![0, 1, 2, 3] : Fin 4 → Fin S8x32x64x1.rank)
  bcast_S8x32_S8x32x1_0_1 : S8x32.BroadcastsInDim S8x32x1 (![0, 1] : Fin 2 → Fin S8x32x1.rank)
  bcast_S8x32x1_S8x32x64_0_1_2 : S8x32x1.BroadcastsInDim S8x32x64 (![0, 1, 2] : Fin 3 → Fin S8x32x64.rank)
  slices_S8x32x64x1_S8x32x64x0_0_0_0_0 : S8x32x64x1.Slices ![0, 0, 0, 0] S8x32x64x0
  bcast_S8x32x64_S8x32x64x1_0_1_2 : S8x32x64.BroadcastsInDim S8x32x64x1 (![0, 1, 2] : Fin 3 → Fin S8x32x64x1.rank)
  concatenates_S8x32x64x0_S8x32x64x1_S8x32x64x1_S8x32x64x2_d3 : Shape.Concatenates [S8x32x64x0, S8x32x64x1, S8x32x64x1] S8x32x64x2 3
  shapeCasts_S8x32x64x2_S8x2048x2 : S8x32x64x2.ShapeCasts S8x2048x2
  bcast_S8x2048x2_S8x2048x1x2_0_1_3 : S8x2048x2.BroadcastsInDim S8x2048x1x2 (![0, 1, 3] : Fin 3 → Fin S8x2048x1x2.rank)
  bcast_S8x2048x2_S8x1x2048x2_0_2_3 : S8x2048x2.BroadcastsInDim S8x1x2048x2 (![0, 2, 3] : Fin 3 → Fin S8x1x2048x2.rank)
  bcast_S8x2048x1x2_S8x2048x2048x2_0_1_2_3 : S8x2048x1x2.BroadcastsInDim S8x2048x2048x2 (![0, 1, 2, 3] : Fin 4 → Fin S8x2048x2048x2.rank)
  bcast_S8x1x2048x2_S8x2048x2048x2_0_1_2_3 : S8x1x2048x2.BroadcastsInDim S8x2048x2048x2 (![0, 1, 2, 3] : Fin 4 → Fin S8x2048x2048x2.rank)
  bcast_S2_S1x1x1x2_3 : S2.BroadcastsInDim S1x1x1x2 (![3] : Fin 1 → Fin S1x1x1x2.rank)
  bcast_S1x1x1x2_S8x2048x2048x2_0_1_2_3 : S1x1x1x2.BroadcastsInDim S8x2048x2048x2 (![0, 1, 2, 3] : Fin 4 → Fin S8x2048x2048x2.rank)
  reducesTo_S8x2048x2048x2_S8x2048x2048_d3 : S8x2048x2048x2.ReducesTo [3] S8x2048x2048
  h_S_ : 0 < S_.numel
  bcast_S_S8x2048x2048 : S_.BroadcastsInDim S8x2048x2048 (![] : Fin 0 → Fin S8x2048x2048.rank)
  shapeCasts_S8x2048x64_S8x32x64x64 : S8x2048x64.ShapeCasts S8x32x64x64
  dot_S8x2048x2048_S8x2048x64_S8x2048x64_2_1_1_2_0_0_wf : DotDims.WF S8x2048x2048 S8x2048x64 S8x2048x64 [2] [1] [1] [2] [0] [0]

variable [Facts₀]

def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KernelEntry.lean ====
/-
  One entry of what the kernel body stores.

  At a grid point the body loads a column of 8 rescaled time-grid values t, the 64 rescaled spatial grid values g,
  the two rows (time, space) of the 2048 rescaled context coordinates u, v, and the 2048 x 64 block of values z; it
  forms the 8 x 2048 factors exp (0 - (t_a - u_n)^2) and the 64 x 2048 factors exp (0 - (g_s - v_n)^2), multiplies them
  into a 512 x 2048 weight matrix whose row a * 64 + s pairs time row a with grid row s, and stores weights x z.
  So entry (a * 64 + s, j) of the stored block is
      sum over n of (exp (0 - (t_a - u_n)^2) * exp (0 - (g_s - v_n)^2)) * z_(n, j).
  The changes of float format in between are the identity on extended reals.
-/
import proofs.«130686_g86251533238888_cont_sun_c4_453_6_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Entry

open Idealize.ShloMosaic Idealize.ShloMosaic.ValueIdx Cert.KernelIdeal Cert.KernelIdeal.Gen

/-! ## Broadcasts of small shapes read at coordinates -/

section Layout
variable {α : Type}

/-- A column [a, 1] broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, c] cast to [a, 1, c] reads, at (p, u, r), the operand at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

end Layout

/-! ## The two one-dimensional factors -/

/-- The zero word the body subtracts from. -/
abbrev z : EReal := Ideal.ofBits .f32 0x00000000#32

/-- The 8 x 2048 time factors, as the body computes them from the loaded column and row. -/
def timeFactor (x0 : Vec Ideal S1x8x1 .f32) (x4 : Vec Ideal S1x1x2048 .f32) : FVec Ideal S8x2048 .bf16 :=
  truncf .bf16 (exp (subf (broadcast S8x2048 (Scalar.ofBits .f32 0x00000000#32))
    (mulf
      (subf (broadcastTo S8x2048 (shapeCast S8x1 x0 shapeCasts_S1x8x1_S8x1) broadcasts_S8x1_S8x2048)
        (broadcastTo S8x2048 (shapeCast S1x2048 x4 shapeCasts_S1x1x2048_S1x2048) broadcasts_S1x2048_S8x2048))
      (subf (broadcastTo S8x2048 (shapeCast S8x1 x0 shapeCasts_S1x8x1_S8x1) broadcasts_S8x1_S8x2048)
        (broadcastTo S8x2048 (shapeCast S1x2048 x4 shapeCasts_S1x1x2048_S1x2048) broadcasts_S1x2048_S8x2048))))) bitsLt_bf16_f32

/-- The 64 x 2048 space factors. -/
def spaceFactor (x2 : Vec Ideal S64x1 .f32) (x6 : Vec Ideal S1x1x2048 .f32) : FVec Ideal S64x2048 .bf16 :=
  truncf .bf16 (exp (subf (broadcast S64x2048 (Scalar.ofBits .f32 0x00000000#32))
    (mulf
      (subf (broadcastTo S64x2048 (shapeCast S64x1 x2 shapeCasts_S64x1_S64x1) broadcasts_S64x1_S64x2048)
        (broadcastTo S64x2048 (shapeCast S1x2048 x6 shapeCasts_S1x1x2048_S1x2048) broadcasts_S1x2048_S64x2048))
      (subf (broadcastTo S64x2048 (shapeCast S64x1 x2 shapeCasts_S64x1_S64x1) broadcasts_S64x1_S64x2048)
        (broadcastTo S64x2048 (shapeCast S1x2048 x6 shapeCasts_S1x1x2048_S1x2048) broadcasts_S1x2048_S64x2048))))) bitsLt_bf16_f32

theorem timeFactor_apply (x0 : Vec Ideal S1x8x1 .f32) (x4 : Vec Ideal S1x1x2048 .f32) (a : Fin 8) (n : Fin 2048) :
    timeFactor x0 x4 (ix2 a n)
      = Ideal.exp (z - (x0 (ix3 (0 : Fin 1) a (0 : Fin 1)) - x4 (ix3 (0 : Fin 1) (0 : Fin 1) n))
                      * (x0 (ix3 (0 : Fin 1) a (0 : Fin 1)) - x4 (ix3 (0 : Fin 1) (0 : Fin 1) n))) := by
  have e1 : broadcastTo S8x2048 (shapeCast S8x1 x0 shapeCasts_S1x8x1_S8x1) broadcasts_S8x1_S8x2048 (ix2 a n)
      = x0 (ix3 (0 : Fin 1) a (0 : Fin 1)) :=
    (broadcastTo_a1_ab_apply _ broadcasts_S8x1_S8x2048 a n).trans (shapeCast_1ab_ab_apply x0 shapeCasts_S1x8x1_S8x1 a (0 : Fin 1))
  have e2 : broadcastTo S8x2048 (shapeCast S1x2048 x4 shapeCasts_S1x1x2048_S1x2048) broadcasts_S1x2048_S8x2048 (ix2 a n)
      = x4 (ix3 (0 : Fin 1) (0 : Fin 1) n) :=
    (broadcastTo_1b_ab_apply _ broadcasts_S1x2048_S8x2048 a n).trans (shapeCast_1ab_ab_apply x4 shapeCasts_S1x1x2048_S1x2048 (0 : Fin 1) n)
  show Ideal.exp (Ideal.ofBits .f32 0x00000000#32 - (broadcastTo S8x2048 (shapeCast S8x1 x0 shapeCasts_S1x8x1_S8x1) broadcasts_S8x1_S8x2048 (ix2 a n) - broadcastTo S8x2048 (shapeCast S1x2048 x4 shapeCasts_S1x1x2048_S1x2048) broadcasts_S1x2048_S8x2048 (ix2 a n)) * (broadcastTo S8x2048 (shapeCast S8x1 x0 shapeCasts_S1x8x1_S8x1) broadcasts_S8x1_S8x2048 (ix2 a n) - broadcastTo S8x2048 (shapeCast S1x2048 x4 shapeCasts_S1x1x2048_S1x2048) broadcasts_S1x2048_S8x2048 (ix2 a n))) = _
  rw [e1, e2]

theorem spaceFactor_apply (x2 : Vec Ideal S64x1 .f32) (x6 : Vec Ideal S1x1x2048 .f32) (s : Fin 64) (n : Fin 2048) :
    spaceFactor x2 x6 (ix2 s n)
      = Ideal.exp (z - (x2 (ix2 s (0 : Fin 1)) - x6 (ix3 (0 : Fin 1) (0 : Fin 1) n))
                      * (x2 (ix2 s (0 : Fin 1)) - x6 (ix3 (0 : Fin 1) (0 : Fin 1) n))) := by
  have e1 : broadcastTo S64x2048 (shapeCast S64x1 x2 shapeCasts_S64x1_S64x1) broadcasts_S64x1_S64x2048 (ix2 s n)
      = x2 (ix2 s (0 : Fin 1)) := by
    rw [shapeCast_self]
    exact broadcastTo_a1_ab_apply _ broadcasts_S64x1_S64x2048 s n
  have e2 : broadcastTo S64x2048 (shapeCast S1x2048 x6 shapeCasts_S1x1x2048_S1x2048) broadcasts_S1x2048_S64x2048 (ix2 s n)
      = x6 (ix3 (0 : Fin 1) (0 : Fin 1) n) :=
    (broadcastTo_1b_ab_apply _ broadcasts_S1x2048_S64x2048 s n).trans (shapeCast_1ab_ab_apply x6 shapeCasts_S1x1x2048_S1x2048 (0 : Fin 1) n)
  show Ideal.exp (Ideal.ofBits .f32 0x00000000#32 - (broadcastTo S64x2048 (shapeCast S64x1 x2 shapeCasts_S64x1_S64x1) broadcasts_S64x1_S64x2048 (ix2 s n) - broadcastTo S64x2048 (shapeCast S1x2048 x6 shapeCasts_S1x1x2048_S1x2048) broadcasts_S1x2048_S64x2048 (ix2 s n)) * (broadcastTo S64x2048 (shapeCast S64x1 x2 shapeCasts_S64x1_S64x1) broadcasts_S64x1_S64x2048 (ix2 s n) - broadcastTo S64x2048 (shapeCast S1x2048 x6 shapeCasts_S1x1x2048_S1x2048) broadcasts_S1x2048_S64x2048 (ix2 s n))) = _
  rw [e1, e2]

/-! ## The weight matrix: row a * 64 + s pairs time row a with grid row s -/

/-- The 512 x 2048 weights, as the body lays them out from the two factors. -/
def weights (T : FVec Ideal S8x2048 .bf16) (S : FVec Ideal S64x2048 .bf16) : FVec Ideal S512x2048 .bf16 :=
  shapeCast S512x2048
    (mulf (broadcastTo S8x64x2048 (shapeCast S8x1x2048 T shapeCasts_S8x2048_S8x1x2048) broadcasts_S8x1x2048_S8x64x2048)
          (broadcastTo S8x64x2048 (shapeCast S1x64x2048 S shapeCasts_S64x2048_S1x64x2048) broadcasts_S1x64x2048_S8x64x2048))
    shapeCasts_S8x64x2048_S512x2048

theorem weights_apply (T : FVec Ideal S8x2048 .bf16) (S : FVec Ideal S64x2048 .bf16) (a : Fin 8) (s : Fin 64) (n : Fin 2048)
    (i : Fin 512) (hi : i.val = a.val * 64 + s.val) :
    weights T S (ix2 i n) = T (ix2 a n) * S (ix2 s n) := by
  unfold weights
  refine (shapeCast_apply _ shapeCasts_S8x64x2048_S512x2048 (ix2 i n) (ix3 a s n) (by
    rw [Shape.rowMajor_val_three, Shape.rowMajor_val_two]
    show (a.val * 64 + s.val) * 2048 + n.val = i.val * 2048 + n.val
    rw [hi])).trans ?_
  show broadcastTo S8x64x2048 (shapeCast S8x1x2048 T shapeCasts_S8x2048_S8x1x2048) broadcasts_S8x1x2048_S8x64x2048 (ix3 a s n)
      * broadcastTo S8x64x2048 (shapeCast S1x64x2048 S shapeCasts_S64x2048_S1x64x2048) broadcasts_S1x64x2048_S8x64x2048 (ix3 a s n) = _
  rw [broadcastTo_a1c_abc_apply _ broadcasts_S8x1x2048_S8x64x2048 a s n, shapeCast_ac_a1c_apply T shapeCasts_S8x2048_S8x1x2048 a (0 : Fin 1) n,
    broadcastTo_1bc_abc_apply _ broadcasts_S1x64x2048_S8x64x2048 a s n, shapeCast_ab_1ab_apply S shapeCasts_S64x2048_S1x64x2048 (0 : Fin 1) s n]

/-! ## The product with the values -/

theorem lhs_ax0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_ax1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_ax0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_ax1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The matrix product into a zero accumulator, at (i, j), is the sum over the 2048 context points. -/
theorem product_apply (L : FVec Ideal S512x2048 .bf16) (R : FVec Ideal S2048x64 .bf16) (i : Fin 512) (j : Fin 64) :
    matmul dot_S512x2048_S2048x64_S512x64_1_0_0_1_n_n none L R (constant S512x64 .f32 0x00000000#32) (ix2 i j)
      = ∑ n : Fin 2048, L (ix2 i n) * R (ix2 n j) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 i j) ((ValueIdx.contrEquiv1 dot_S512x2048_S2048x64_S512x64_1_0_0_1_n_n 2048 rfl rfl).symm k) = ix2 i k := funext fun a => Fin.ext (by
    match a with
    | ⟨0, _⟩ => exact lhs_ax0 _ _
    | ⟨1, _⟩ => exact (lhs_ax1 _ _).trans hk)
  have er : dot_S512x2048_S2048x64_S512x64_1_0_0_1_n_n.rhsIdx (ix2 i j) ((ValueIdx.contrEquiv1 dot_S512x2048_S2048x64_S512x64_1_0_0_1_n_n 2048 rfl rfl).symm k) = ix2 k j := funext fun a => Fin.ext (by
    match a with
    | ⟨0, _⟩ => exact (rhs_ax0 _ _).trans hk
    | ⟨1, _⟩ => exact rhs_ax1 _ _)
  rw [el, er]

/-! ## The stored block -/

/-- The body's payload is the product of the weights of its two factors with the loaded values. -/
theorem payload_eq (x0 : Vec Ideal S1x8x1 .f32) (x2 : Vec Ideal S64x1 .f32) (x4 x6 : Vec Ideal S1x1x2048 .f32)
    (x30 : Vec Ideal S1x2048x64 .bf16) :
    k0_pay1 (F := Ideal) x0 x2 x4 x6 x30
      = shapeCast S1x512x64
          (matmul dot_S512x2048_S2048x64_S512x64_1_0_0_1_n_n none (weights (timeFactor x0 x4) (spaceFactor x2 x6))
            (shapeCast S2048x64 x30 shapeCasts_S1x2048x64_S2048x64 : FVec Ideal S2048x64 .bf16) (constant S512x64 .f32 0x00000000#32))
          shapeCasts_S512x64_S1x512x64 := rfl

/-- Entry (0, a * 64 + s, j) of the stored block. -/
theorem payload_apply (x0 : Vec Ideal S1x8x1 .f32) (x2 : Vec Ideal S64x1 .f32) (x4 x6 : Vec Ideal S1x1x2048 .f32)
    (x30 : Vec Ideal S1x2048x64 .bf16) (a : Fin 8) (s : Fin 64) (j : Fin 64) (i : Fin 512) (hi : i.val = a.val * 64 + s.val) :
    k0_pay1 (F := Ideal) x0 x2 x4 x6 x30 (ix3 (0 : Fin 1) i j)
      = ∑ n : Fin 2048,
          (Ideal.exp (z - (x0 (ix3 (0 : Fin 1) a (0 : Fin 1)) - x4 (ix3 (0 : Fin 1) (0 : Fin 1) n))
                          * (x0 (ix3 (0 : Fin 1) a (0 : Fin 1)) - x4 (ix3 (0 : Fin 1) (0 : Fin 1) n)))
            * Ideal.exp (z - (x2 (ix2 s (0 : Fin 1)) - x6 (ix3 (0 : Fin 1) (0 : Fin 1) n))
                            * (x2 (ix2 s (0 : Fin 1)) - x6 (ix3 (0 : Fin 1) (0 : Fin 1) n))))
          * x30 (ix3 (0 : Fin 1) n j) := by
  rw [payload_eq]
  refine (shapeCast_ab_1ab_apply _ shapeCasts_S512x64_S1x512x64 (0 : Fin 1) i j).trans ?_
  rw [product_apply]
  refine Finset.sum_congr rfl fun n _ => ?_
  rw [weights_apply _ _ a s n i hi, timeFactor_apply, spaceFactor_apply,
    shapeCast_1ab_ab_apply x30 shapeCasts_S1x2048x64_S2048x64 n j]

end Cert.KernelIdeal.Entry

end
-- ==== Proof.KernelBlocks.lean ====
/-
  From the stored blocks to the whole output array.

  Grid point (b, q) of the 8 x 4 grid works on batch b and on the eight time rows 8 q .. 8 q + 7: it reads rows
  8 q + a of the rescaled time grid, the whole rescaled spatial grid, the two coordinate rows and the values of batch b,
  and writes rows 512 q .. 512 q + 511 of batch b of the output. Row M = 512 q + 64 a + s of the output therefore
  belongs to time row M / 64 and grid row M % 64, and every entry (b, M, j) of the output array is
      sum over n of (exp (0 - (T (b, M / 64) - X (b, 0, n))^2) * exp (0 - (G (M % 64) - X (b, 1, n))^2)) * Z (b, n, j),
  ONE function of the four arrays the region finds; the 32 blocks tile the array, so after the run the array is
  that function.
-/
import proofs.«130686_g86251533238888_cont_sun_c4_453_6_alg».proof.Proof.Gen.KernelIdeal.Frame
import proofs.«130686_g86251533238888_cont_sun_c4_453_6_alg».proof.Proof.KernelEntry
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Entry

variable (m : (ℓ : Loc nD τ sig) → Buf (Elt Ideal) ℓ)

/-! ## The output as one function -/

/-- The output entry of batch b, time row r, grid row s, column j: the weighted sum over the context points. -/
def entryAt (T : S8x32x1.Idx → EReal) (G : S64x1.Idx → EReal) (X : S8x2x2048.Idx → EReal) (Z : S8x2048x64.Idx → EReal)
    (b : Fin 8) (r : Fin 32) (s : Fin 64) (j : Fin 64) : EReal :=
  ∑ n : Fin 2048,
    (Ideal.exp (z - (T (ix3 b r (0 : Fin 1)) - X (ix3 b (0 : Fin 2) n)) * (T (ix3 b r (0 : Fin 1)) - X (ix3 b (0 : Fin 2) n)))
      * Ideal.exp (z - (G (ix2 s (0 : Fin 1)) - X (ix3 b (1 : Fin 2) n)) * (G (ix2 s (0 : Fin 1)) - X (ix3 b (1 : Fin 2) n))))
    * Z (ix3 b n j)

/-- Row M of the 2048 output rows belongs to time row M / 64 … -/
def timeRow (M : Fin 2048) : Fin 32 := ⟨M.val / 64, by have := M.isLt; omega⟩
/-- … and to grid row M % 64. -/
def gridRow (M : Fin 2048) : Fin 64 := ⟨M.val % 64, Nat.mod_lt _ (by decide)⟩

/-- The output array as one function of the four input arrays of the region. -/
def outArr (T : S8x32x1.Idx → EReal) (G : S64x1.Idx → EReal) (X : S8x2x2048.Idx → EReal) (Z : S8x2048x64.Idx → EReal) :
    S8x2048x64.Idx → EReal := fun i => entryAt T G X Z (i 0) (timeRow (i 1)) (gridRow (i 1)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps over the 32 grid points -/

/-- The time window follows the output on both block axes, the coordinate and value windows follow it on the batch axis,
    every other block index is 0; the output's block indices range over 8 batches and 4 row blocks. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) < 8 ∧ win0_4.index t (1 : Fin 3) < 4 :=
  (by decide +kernel : ∀ t : Fin grid0.N, _)

/-- Every (batch, row block) is some grid point's output block. -/
theorem idx_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- The batch a grid point works on. -/
def batchOf (t : Fin cfg0.N) : Fin 8 := ⟨win0_4.index t (0 : Fin 3), (idx_facts t).2.2.2.2.2.2.2.2.2.2.2.2.1⟩
/-- Its block of eight time rows. -/
def rowBlockOf (t : Fin cfg0.N) : Fin 4 := ⟨win0_4.index t (1 : Fin 3), (idx_facts t).2.2.2.2.2.2.2.2.2.2.2.2.2⟩

/-! ## Each window's block read where the output's block says -/

/-- Time row a of the point's block is row 8 q + a of the batch. -/
theorem time_block (c : Dev nD) (t : Fin cfg0.N) (a : Fin 8) :
    iblk m c 0 t (ix3 (0 : Fin 1) a (0 : Fin 1))
      = V m c main_v13 (ix3 (batchOf t) (⟨(rowBlockOf t).val * 8 + a.val, by have := (rowBlockOf t).isLt; have := a.isLt; omega⟩ : Fin 32) (0 : Fin 1)) := by
  obtain ⟨e00, e01, e02, -⟩ := idx_facts t
  show V m c main_v13 (((cfg0.win 0).blk t).view.emb (ix3 (0 : Fin 1) a (0 : Fin 1))) = _
  refine congrArg (V m c main_v13) (funext fun ax => Fin.ext ?_)
  match ax with
  | ⟨0, _⟩ => show win0_0.index t (0 : Fin 3) * 1 + 1 * 0 = win0_4.index t (0 : Fin 3); omega
  | ⟨1, _⟩ => show win0_0.index t (1 : Fin 3) * 8 + 1 * a.val = win0_4.index t (1 : Fin 3) * 8 + a.val; omega
  | ⟨2, _⟩ => show win0_0.index t (2 : Fin 3) * 1 + 1 * 0 = 0; omega

/-- The spatial grid is read whole. -/
theorem place_block (c : Dev nD) (t : Fin cfg0.N) (s : Fin 64) :
    iblk m c 1 t (ix2 s (0 : Fin 1)) = V m c main_v19 (ix2 s (0 : Fin 1)) := by
  obtain ⟨-, -, -, e10, e11, -⟩ := idx_facts t
  show V m c main_v19 (((cfg0.win 1).blk t).view.emb (ix2 s (0 : Fin 1))) = _
  refine congrArg (V m c main_v19) (funext fun ax => Fin.ext ?_)
  match ax with
  | ⟨0, _⟩ => show win0_1.index t (0 : Fin 2) * 64 + 1 * s.val = s.val; omega
  | ⟨1, _⟩ => show win0_1.index t (1 : Fin 2) * 1 + 1 * 0 = 0; omega

/-- The two coordinate rows are those of the batch. -/
theorem coords_block (c : Dev nD) (t : Fin cfg0.N) (d : Fin 2) (n : Fin 2048) :
    iblk m c 2 t (ix3 (0 : Fin 1) d n) = V m c main_v23 (ix3 (batchOf t) d n) := by
  obtain ⟨-, -, -, -, -, e20, e21, e22, -⟩ := idx_facts t
  show V m c main_v23 (((cfg0.win 2).blk t).view.emb (ix3 (0 : Fin 1) d n)) = _
  refine congrArg (V m c main_v23) (funext fun ax => Fin.ext ?_)
  match ax with
  | ⟨0, _⟩ => show win0_2.index t (0 : Fin 3) * 1 + 1 * 0 = win0_4.index t (0 : Fin 3); omega
  | ⟨1, _⟩ => show win0_2.index t (1 : Fin 3) * 2 + 1 * d.val = d.val; omega
  | ⟨2, _⟩ => show win0_2.index t (2 : Fin 3) * 2048 + 1 * n.val = n.val; omega

/-- The values are those of the batch. -/
theorem values_block (c : Dev nD) (t : Fin cfg0.N) (n : Fin 2048) (j : Fin 64) :
    iblk m c 3 t (ix3 (0 : Fin 1) n j) = V m c main_v24 (ix3 (batchOf t) n j) := by
  obtain ⟨-, -, -, -, -, -, -, -, e30, e31, e32, -⟩ := idx_facts t
  show V m c main_v24 (((cfg0.win 3).blk t).view.emb (ix3 (0 : Fin 1) n j)) = _
  refine congrArg (V m c main_v24) (funext fun ax => Fin.ext ?_)
  match ax with
  | ⟨0, _⟩ => show win0_3.index t (0 : Fin 3) * 1 + 1 * 0 = win0_4.index t (0 : Fin 3); omega
  | ⟨1, _⟩ => show win0_3.index t (1 : Fin 3) * 2048 + 1 * n.val = n.val; omega
  | ⟨2, _⟩ => show win0_3.index t (2 : Fin 3) * 64 + 1 * j.val = j.val; omega

/-- Where entry (0, i, j) of the point's output block lies in the output array: batch b, row 512 q + i, column j. -/
theorem out_emb (t : Fin cfg0.N) (i : Fin 512) (j : Fin 64) :
    ((cfg0.win 4).blk t).view.emb (ix3 (0 : Fin 1) i j)
      = ix3 (batchOf t) (⟨(rowBlockOf t).val * 512 + i.val, by have := (rowBlockOf t).isLt; have := i.isLt; omega⟩ : Fin 2048) j := by
  obtain ⟨-, -, -, -, -, -, -, -, -, -, -, e42, -⟩ := idx_facts t
  refine funext fun ax => Fin.ext ?_
  match ax with
  | ⟨0, _⟩ => show win0_4.index t (0 : Fin 3) * 1 + 1 * 0 = win0_4.index t (0 : Fin 3); omega
  | ⟨1, _⟩ => show win0_4.index t (1 : Fin 3) * 512 + 1 * i.val = win0_4.index t (1 : Fin 3) * 512 + i.val; omega
  | ⟨2, _⟩ => show win0_4.index t (2 : Fin 3) * 64 + 1 * j.val = j.val; omega

/-! ## The stored block is the block of the one function -/

/-- The two coordinate rows the body loads out of its 1 x 2 x 2048 block. -/
theorem ld_row0 (x : Vec Ideal S1x2x2048 .f32) (n : Fin 2048) :
    View.ld x r0_2 (ix3 (0 : Fin 1) (0 : Fin 1) n) = x (ix3 (0 : Fin 1) (0 : Fin 2) n) :=
  congrArg x (funext fun a => Fin.ext (by
    match a with
    | ⟨0, _⟩ => rfl
    | ⟨1, _⟩ => rfl
    | ⟨2, _⟩ => show 0 + 1 * n.val = n.val; omega))
theorem ld_row1 (x : Vec Ideal S1x2x2048 .f32) (n : Fin 2048) :
    View.ld x r0_3 (ix3 (0 : Fin 1) (0 : Fin 1) n) = x (ix3 (0 : Fin 1) (1 : Fin 2) n) :=
  congrArg x (funext fun a => Fin.ext (by
    match a with
    | ⟨0, _⟩ => rfl
    | ⟨1, _⟩ => rfl
    | ⟨2, _⟩ => show 0 + 1 * n.val = n.val; omega))

/-- Entry (0, 64 a + s, j) of what grid point t stores is the output entry of its batch, time row 8 q + a, grid row s. -/
theorem stored_entry (c : Dev nD) (t : Fin cfg0.N) (a : Fin 8) (s : Fin 64) (j : Fin 64) (i : Fin 512) (hi : i.val = a.val * 64 + s.val) :
    k0_pay1 (F := Ideal) (iblk m c 0 t) (iblk m c 1 t) (View.ld (iblk m c 2 t) r0_2) (View.ld (iblk m c 2 t) r0_3) (iblk m c 3 t)
        (ix3 (0 : Fin 1) i j)
      = entryAt (V m c main_v13) (V m c main_v19) (V m c main_v23) (V m c main_v24) (batchOf t)
          (⟨(rowBlockOf t).val * 8 + a.val, by have := (rowBlockOf t).isLt; have := a.isLt; omega⟩ : Fin 32) s j := by
  rw [payload_apply (iblk m c 0 t) (iblk m c 1 t) (View.ld (iblk m c 2 t) r0_2) (View.ld (iblk m c 2 t) r0_3) (iblk m c 3 t) a s j i hi]
  unfold entryAt
  refine Finset.sum_congr rfl fun n _ => ?_
  rw [ld_row0, ld_row1, time_block, place_block, coords_block, coords_block, values_block]

set_option maxHeartbeats 1000000 in
/-- WHAT A GRID POINT WRITES BACK is its block of the one function `outArr` of the arrays the region finds. -/
theorem flushed_eq (c : Dev nD) (t : Fin cfg0.N) :
    (dats m 0 c).flushed 4 t = ((cfg0.win 4).blk t).view.read (Elt Ideal)
      (outArr (V m c main_v13) (V m c main_v19) (V m c main_v23) (V m c main_v24)) := by
  show (cfg0.win 4).cut (grid0.coords t) ((dats m 0 c).after 4 t) = _
  rw [after0_4]
  unfold out0_4
  rw [View.canon_unit_zero hz3]
  simp only [View.ld_unit_zero (S := S1x8x1) hz3, View.ld_unit_zero (S := S64x1) hz2, View.ld_unit_zero (S := S1x2048x64) hz3]
  funext y
  obtain ⟨u, i, j, rfl⟩ : ∃ (u : Fin 1) (i : Fin 512) (j : Fin 64), y = ix3 u i j := ⟨y 0, y 1, y 2, eq_ix3 y⟩
  obtain rfl : u = 0 := Subsingleton.elim _ _
  have hi : i.val = (⟨i.val / 64, by have := i.isLt; omega⟩ : Fin 8).val * 64 + (⟨i.val % 64, Nat.mod_lt _ (by decide)⟩ : Fin 64).val := by
    show i.val = i.val / 64 * 64 + i.val % 64
    omega
  refine (stored_entry m c t ⟨i.val / 64, by have := i.isLt; omega⟩ ⟨i.val % 64, Nat.mod_lt _ (by decide)⟩ j i hi).trans ?_
  show _ = outArr (V m c main_v13) (V m c main_v19) (V m c main_v23) (V m c main_v24) (((cfg0.win 4).blk t).view.emb (ix3 (0 : Fin 1) i j))
  rw [out_emb]
  have hq := (rowBlockOf t).isLt
  have hi' := i.isLt
  have e1 : timeRow (⟨(rowBlockOf t).val * 512 + i.val, by omega⟩ : Fin 2048) = (⟨(rowBlockOf t).val * 8 + i.val / 64, by omega⟩ : Fin 32) :=
    Fin.ext (by show ((rowBlockOf t).val * 512 + i.val) / 64 = (rowBlockOf t).val * 8 + i.val / 64; omega)
  have e2 : gridRow (⟨(rowBlockOf t).val * 512 + i.val, by omega⟩ : Fin 2048) = (⟨i.val % 64, Nat.mod_lt _ (by decide)⟩ : Fin 64) :=
    Fin.ext (by show ((rowBlockOf t).val * 512 + i.val) % 64 = i.val % 64; omega)
  show _ = entryAt _ _ _ _ (batchOf t) (timeRow (⟨(rowBlockOf t).val * 512 + i.val, by omega⟩ : Fin 2048)) (gridRow (⟨(rowBlockOf t).val * 512 + i.val, by omega⟩ : Fin 2048)) j
  rw [e1, e2]

/-! ## The blocks tile the array -/

/-- An index of the output array is in a grid point's block iff each coordinate is in the block's range. -/
theorem mem_blk (t : Fin cfg0.N) (i : S8x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v25).slice (win0_4.rect t)).set ↔ _
  rw [View.set_slice_whole, Rect.mem_set_unit]
  exact Iff.rfl

/-- The 32 blocks cover the output array: (b, M, j) lies in the block of the grid point (b, M / 512). -/
theorem cover (i : S8x2048x64.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE OUTPUT ARRAY after the run. -/
theorem final (c : Dev nD) :
    (dats m 0 c).arrAt 4 cfg0.N = outArr (V m c main_v13) (V m c main_v19) (V m c main_v23) (V m c main_v24) :=
  (dats m 0 c).arrAt_eq_of_cover 4 _ (fun t _ => flushed_eq m c t) cover

end Cert.KernelIdeal.Blocks

end
-- ==== Proof.KernelResult.lean ====
/-
  The kernel's run with both results named, and each result at an index.

  After the region the host broadcasts the time grid and the spatial grid over the (batch, time, place) grid and joins them
  along a last axis of extent 2: that is the first result, the grid's coordinates: entry (b, t, s, 0) is the time of batch
  b at t, entry (b, t, s, 1) the place s. The second result is the region's output array [8, 2048, 64] with its 2048 rows
  read as 32 time rows x 64 grid rows: entry (b, t, s, j) is the output entry of batch b, time row t, grid row s, column j.
-/
import proofs.«130686_g86251533238888_cont_sun_c4_453_6_alg».proof.Proof.KernelBlocks
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Blocks

variable (m : (ℓ : Loc nD τ sig) → Buf (Elt Ideal) ℓ) (ρ : Dev nD → PrngReg)

/-- The grid's coordinates: time and place joined along the last axis. -/
def coordsOut (tg : S8x32.Idx → EReal) (g : S64x1.Idx → EReal) : S8x32x64x2.Idx → EReal :=
  concatenate S8x32x64x2 3
    [⟨S8x32x64x1, broadcastInDim S8x32x64x1 ![0, 1, 2, 3] bcast_S8x32x1x1_S8x32x64x1_0_1_2_3 (broadcastInDim S8x32x1x1 ![0, 1] bcast_S8x32_S8x32x1x1_0_1 tg)⟩,
     ⟨S8x32x64x1, broadcastInDim S8x32x64x1 ![0, 1, 2, 3] bcast_S1x1x64x1_S8x32x64x1_0_1_2_3 (broadcastInDim S1x1x64x1 ![2, 3] bcast_S64x1_S1x1x64x1_2_3 g)⟩]
    concatenates_S8x32x64x1_S8x32x64x1_S8x32x64x2_d3

/-- The output array with its rows read as (time row, grid row). -/
def valuesOut (A : S8x2048x64.Idx → EReal) : S8x32x64x64.Idx → EReal :=
  shapeCast S8x32x64x64 A shapeCasts_S8x2048x64_S8x32x64x64

/-! ## The host operations after the region -/

theorem tail_values (c : Dev nD) :
    Pipeline.afterTail₀ cfgs (dats m) 0 (V0 m) [hostOps1] c main_v31 = valuesOut ((dats m 0 c).arrAt 4 cfg0.N) := by
  unfold Pipeline.afterTail₀
  show StableHlo.after hostOps1 _ (Proc.devRef .tc main_v31) = _
  after_results
  have e : Pipeline.withArrays (cfgs 0).spec c (V0 m c) (fun w => (dats m 0 c).arrAt w (cfgs 0).N) (Proc.tc.devRef main_v25)
      = (dats m 0 c).arrAt 4 cfg0.N :=
    Pipeline.withArrays_arr spec0 launch0.win.arr_inj c (V0 m c) (fun w => (dats m 0 c).arrAt w cfg0.N) 4
  rw [e]
  rfl

theorem tail_coords (c : Dev nD) :
    Pipeline.afterTail₀ cfgs (dats m) 0 (V0 m) [hostOps1] c main_v30
      = coordsOut (m ((c : Thread nD τ).loc main_arg2)) (m ((c : Thread nD τ).loc main_arg3)) := by
  unfold Pipeline.afterTail₀
  show StableHlo.after hostOps1 _ (Proc.devRef .tc main_v30) = _
  after_results
  have e2 : Pipeline.withArrays (cfgs 0).spec c (V0 m c) (fun w => (dats m 0 c).arrAt w (cfgs 0).N) (Proc.tc.devRef main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.tc.devRef main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  rw [e2, e3]
  rfl

/-! ## The run -/

/-- Every weakly fair execution ends with the coordinates and the values as named, the arguments unchanged. -/
theorem run : θ_run defs (onTc (τ := τ) (main (F := Ideal))) ⟨m, fun _ => 0, ρ⟩ fun r => ∀ c : Dev nD,
      r.2.mem ((c : Thread nD τ).loc main_v30) = coordsOut (m ((c : Thread nD τ).loc main_arg2)) (m ((c : Thread nD τ).loc main_arg3))
      ∧ r.2.mem ((c : Thread nD τ).loc main_v31) = valuesOut (outArr (V m c main_v13) (V m c main_v19) (V m c main_v23) (V m c main_v24))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v30 (Pipeline.mem_restRefs_of main_v30 (by decide) (by decide))).trans (tail_coords m c),
     ((h c).2 main_v31 (Pipeline.mem_restRefs_of main_v31 (by decide) (by decide))).trans
        ((tail_values m c).trans (congrArg valuesOut (final m c))),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

/-! ## The two results at an index -/

/-- The coordinates at (b, t, s, d): the time for d = 0, the place for d = 1. -/
theorem coords_entry (tg : S8x32.Idx → EReal) (g : S64x1.Idx → EReal) (b : Fin 8) (t : Fin 32) (s : Fin 64) (d : Fin 2) :
    coordsOut tg g (ix4 b t s d) = if d.val = 0 then tg (ix2 b t) else g (ix2 s (0 : Fin 1)) := by
  unfold coordsOut
  match d with
  | ⟨0, _⟩ =>
    rw [if_pos rfl]
    refine (concatenate_pair_apply_left (t := S8x32x64x2) (s₁ := S8x32x64x1) (s₂ := S8x32x64x1) (3 : Fin 4) _ _ concatenates_S8x32x64x1_S8x32x64x1_S8x32x64x2_d3 (ix4 b t s (⟨0, by decide⟩ : Fin 2)) (rfl : S8x32x64x1.rank = S8x32x64x2.rank)
      (ix4 b t s (0 : Fin 1)) (fun ax => match ax with | ⟨0, _⟩ => rfl | ⟨1, _⟩ => rfl | ⟨2, _⟩ => rfl | ⟨3, _⟩ => rfl)).trans ?_
    refine (broadcastInDim_apply _ bcast_S8x32x1x1_S8x32x64x1_0_1_2_3 _ (ix4 b t s (0 : Fin 1)) (ix4 b t (0 : Fin 1) (0 : Fin 1))
      (fun ax => match ax with | ⟨0, _⟩ => rfl | ⟨1, _⟩ => rfl | ⟨2, _⟩ => rfl | ⟨3, _⟩ => rfl)).trans ?_
    exact broadcastInDim_apply _ bcast_S8x32_S8x32x1x1_0_1 tg (ix4 b t (0 : Fin 1) (0 : Fin 1)) (ix2 b t)
      (fun ax => match ax with | ⟨0, _⟩ => rfl | ⟨1, _⟩ => rfl)
  | ⟨1, _⟩ =>
    rw [if_neg (by exact Nat.one_ne_zero)]
    refine (concatenate_pair_apply_right (t := S8x32x64x2) (s₁ := S8x32x64x1) (s₂ := S8x32x64x1) (3 : Fin 4) _ _ concatenates_S8x32x64x1_S8x32x64x1_S8x32x64x2_d3 (ix4 b t s (⟨1, by decide⟩ : Fin 2)) (rfl : S8x32x64x1.rank = S8x32x64x2.rank) (rfl : S8x32x64x1.rank = S8x32x64x2.rank)
      (ix4 b t s (0 : Fin 1)) (fun ax hax => match ax, hax with
        | ⟨0, _⟩, _ => rfl | ⟨1, _⟩, _ => rfl | ⟨2, _⟩, _ => rfl | ⟨3, _⟩, hax => absurd rfl hax) rfl).trans ?_
    refine (broadcastInDim_apply _ bcast_S1x1x64x1_S8x32x64x1_0_1_2_3 _ (ix4 b t s (0 : Fin 1)) (ix4 (0 : Fin 1) (0 : Fin 1) s (0 : Fin 1))
      (fun ax => match ax with | ⟨0, _⟩ => rfl | ⟨1, _⟩ => rfl | ⟨2, _⟩ => rfl | ⟨3, _⟩ => rfl)).trans ?_
    exact broadcastInDim_apply _ bcast_S64x1_S1x1x64x1_2_3 g (ix4 (0 : Fin 1) (0 : Fin 1) s (0 : Fin 1)) (ix2 s (0 : Fin 1))
      (fun ax => match ax with | ⟨0, _⟩ => rfl | ⟨1, _⟩ => rfl)

/-- The values at (b, t, s, j): row t * 64 + s of the output array is time row t, grid row s. -/
theorem values_entry (T : S8x32x1.Idx → EReal) (G : S64x1.Idx → EReal) (X : S8x2x2048.Idx → EReal) (Z : S8x2048x64.Idx → EReal)
    (b : Fin 8) (t : Fin 32) (s : Fin 64) (j : Fin 64) :
    valuesOut (outArr T G X Z) (ix4 b t s j) = entryAt T G X Z b t s j := by
  have hb := b.isLt; have ht := t.isLt; have hs := s.isLt; have hj := j.isLt
  unfold valuesOut
  refine (shapeCast_apply _ shapeCasts_S8x2048x64_S8x32x64x64 (ix4 b t s j) (ix3 b (⟨t.val * 64 + s.val, by omega⟩ : Fin 2048) j) (by
    rw [Shape.rowMajor_val_three, Shape.rowMajor_val_four]
    show (b.val * 2048 + (t.val * 64 + s.val)) * 64 + j.val = ((b.val * 32 + t.val) * 64 + s.val) * 64 + j.val
    omega)).trans ?_
  have e1 : timeRow (⟨t.val * 64 + s.val, by omega⟩ : Fin 2048) = t := Fin.ext (by show (t.val * 64 + s.val) / 64 = t.val; omega)
  have e2 : gridRow (⟨t.val * 64 + s.val, by omega⟩ : Fin 2048) = s := Fin.ext (by show (t.val * 64 + s.val) % 64 = s.val; omega)
  show entryAt T G X Z b (timeRow (⟨t.val * 64 + s.val, by omega⟩ : Fin 2048)) (gridRow (⟨t.val * 64 + s.val, by omega⟩ : Fin 2048)) j = _
  rw [e1, e2]

end Cert.KernelIdeal.Result

end
-- ==== Proof.FiniteInputs.lean ====
/-
  From the precondition to real numbers.

  The precondition says of every float input that the absolute value of each entry is below +infinity. On the
  extended reals |x| < +infinity excludes both infinities, so each entry of those inputs is a real number: this is
  what lets the weights' algebra be done over the reals (distributing the rescaling over a difference, and
  cancelling the lengthscale, both fail at the infinities).
-/
import proofs.«130686_g86251533238888_cont_sun_c4_453_6_alg».proof.Pre_finite_inputs
import Idealize.ShloMosaic.Lib.ReduceAll
import Idealize.ShloMosaic.Lib.ValueIdx
import Idealize.ShloMosaic.PureOps.Ideal.Laws

noncomputable section

namespace Cert.Rbf

open Idealize.ShloMosaic Cert.Pre_finite_inputs

/-- The word 0x7F800000 is the f32 pattern of +infinity: sign 0, exponent all ones, fraction 0. -/
private theorem ofBits_inf : Ideal.ofBits .f32 0x7F800000#32 = (⊤ : EReal) := by
  simp [Ideal.ofBits, Ideal.ieee]

/-- On the extended reals |x| = max x (-x); it is +infinity at both infinities, so |x| < +infinity leaves only
    the real numbers. -/
private theorem real_of_abs_lt_top (x : EReal) (h : max x (-x) < ⊤) : ∃ r : ℝ, x = (r : EReal) := by
  induction x using EReal.rec with
  | bot => simp at h
  | coe r => exact ⟨r, rfl⟩
  | top => simp at h

/-- An all-true compare of |a| against +infinity, reduced by `and` over all axes to the scalar 1, makes every entry
    of a a real number: every entry of the compared array is 1 (a fold by `and` that is 1 met only 1s), which at
    entry i says max (a i) (-(a i)) < +infinity. -/
private theorem real_of_all_lt_inf {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf a) (broadcastInDim s ![] hb (constant (F := Ideal) S_ .f32 0x7F800000#32))) init hr hu j = 1#1)
    (i : s.Idx) : ∃ r : ℝ, a i = (r : EReal) := by
  -- the scalar shape has one index, so the reduction is over all axes
  haveI : Subsingleton S_.Idx := ⟨fun a b => funext fun d => d.elim0⟩
  have hi := Host.reduce_andi_all _ init hr hu j e i
  apply real_of_abs_lt_top
  have hc : Ideal.cmp .olt (max (a i) (-(a i))) (Ideal.ofBits .f32 0x7F800000#32) = 1#1 := hi
  rw [ofBits_inf] at hc
  simp only [Ideal.cmp] at hc
  by_contra hn
  simp [hn] at hc

/-- Under the precondition every entry of the coordinates, the time grid, the spatial grid and the lengthscale
    parameter is a real number. (The values z need not be: they enter both programs only as factors of one sum.) -/
theorem real_of_finite [Cert.Pre_finite_inputs.Facts]
    (a0 : FVec Ideal S8x2048x2 .f32) (a1 : FVec Ideal S8x2048x64 .f32) (a2 : FVec Ideal S8x32 .f32)
    (a3 : FVec Ideal S64x1 .f32) (a4 : FVec Ideal S2 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  -- the result is the `and` of the five reductions, nested to the left
  obtain ⟨h0123, e4⟩ := IntOp.andi_eq_one.1 h0
  obtain ⟨h012, e3⟩ := IntOp.andi_eq_one.1 h0123
  obtain ⟨h01, e2⟩ := IntOp.andi_eq_one.1 h012
  obtain ⟨e0, _⟩ := IntOp.andi_eq_one.1 h01
  exact ⟨real_of_all_lt_inf a0 _ _ _ _ _ e0, real_of_all_lt_inf a2 _ _ _ _ _ e2,
    real_of_all_lt_inf a3 _ _ _ _ _ e3, real_of_all_lt_inf a4 _ _ _ _ _ e4⟩

end Cert.Rbf

end
-- ==== Proof.RbfAlgebra.lean ====
/-
  The weights of the two programs on one entry, as extended reals.

  Both programs smooth the context values onto a (time x space) grid with a Gaussian weight. With lengthscales
  l0, l1 > 0 the reference computes, per grid point (a, g) and context point (x0, x1),
      exp (-1/2 * (0 + ((a - x0)^2 / l0^2 + (g - x1)^2 / l1^2))),
  while the kernel rescales every coordinate by c_k = 1 / (l_k * sqrt 2) first and multiplies the two one-dimensional
  factors exp (0 - (a c0 - x0 c0)^2) * exp (0 - (g c1 - x1 c1)^2). Over the reals these agree because
  (sqrt 2)^2 = 2 and exp (u + v) = exp u * exp v; on the extended reals the same holds once every quantity is
  a real number and the lengthscales are nonzero, which is what the lemmas below assume.

  The lengthscale itself is 1e-5 + softplus p, with softplus p = max p 0 + log (1 + exp (-|p|)) as both programs
  spell it; for a real p it is a positive real.
-/
import Idealize.ShloMosaic.PureOps.Ideal
import Idealize.ShloMosaic.PureOps.Ideal.Laws
import Idealize.ShloMosaic.Lib.ValueIdx

noncomputable section

namespace Cert.Rbf

open Idealize.ShloMosaic

/-- The zero word both programs use (as a subtrahend, a summand, an initial value). -/
abbrev z : EReal := Ideal.ofBits .f32 0x00000000#32

/-- softplus on one extended real, operation by operation as both programs compute it. -/
def softplus (p : EReal) : EReal :=
  Scalar.select (Ideal.cmp .une (p - z) (p - z)) (p + z)
    (max p z + Ideal.log1p (Ideal.exp (-(max (p - z) (-(p - z))))))

/-- The lengthscale: the word of 1e-5 plus softplus. -/
def lengthscale (p : EReal) : EReal := Ideal.ofBits .f32 0x3727C5AC#32 + softplus p

/-- The kernel's rescaling factor 1 / (l * sqrt 2). -/
def scale (l : EReal) : EReal :=
  Ideal.div (Ideal.ofBits .f32 0x3F800000#32) (l * Ideal.sqrt (Ideal.ofBits .f32 0x40000000#32))

/-! ### The literal words as real numbers -/

/-- The word 0x3F800000 is 1: sign 0, exponent field 127, significand field 0. -/
theorem lit_one : Ideal.ofBits .f32 0x3F800000#32 = ((1 : ℝ) : EReal) := by
  simp [Ideal.ofBits, Ideal.ieee, -EReal.coe_mul]; norm_num

/-- The word 0x40000000 is 2: exponent field 128, significand field 0. -/
theorem lit_two : Ideal.ofBits .f32 0x40000000#32 = ((2 : ℝ) : EReal) := by
  simp [Ideal.ofBits, Ideal.ieee, -EReal.coe_mul]; norm_num

/-- The word 0xBF000000 is -1/2: sign 1, exponent field 126, significand field 0. -/
theorem lit_neg_half : Ideal.ofBits .f32 0xBF000000#32 = ((-(1/2) : ℝ) : EReal) := by
  simp [Ideal.ofBits, Ideal.ieee, -EReal.coe_mul]; norm_num

/-- The word 0x3727C5AC (the binary32 value nearest 1e-5) is the dyadic 10995116 * 2^(-40):
    exponent field 110, significand 2^23 + 2606508 = 10995116, and 110 - 127 - 23 = -40. -/
theorem lit_eps : Ideal.ofBits .f32 0x3727C5AC#32 = ((10995116 * (2:ℝ)^(-40 : ℤ) : ℝ) : EReal) := by
  simp [Ideal.ofBits, Ideal.ieee, -EReal.coe_mul]

/-- The zero word is the real number 0. -/
theorem z_eq : z = ((0 : ℝ) : EReal) := by
  rw [EReal.coe_zero]; exact Ideal.ofBits_zero_f32

/-- The inclusion of the reals in the extended reals is monotone, so it commutes with max. -/
theorem coe_max (x y : ℝ) : max (x : EReal) (y : EReal) = ((max x y : ℝ) : EReal) :=
  (EReal.coe_strictMono.monotone.map_max).symm

/-! ### softplus and the lengthscale at a real parameter -/

/-- At a real p every step of softplus stays real: p - 0 = p, the comparison "p differs from p" is the
    bit 0 so the second branch is taken, max p (-p) = |p| is real, exp of a real is a real, 1 + exp (-|p|) is
    positive so its logarithm is the real logarithm, and the sum of two reals is a real. -/
theorem softplus_coe (p : ℝ) :
    softplus (p : EReal) = ((max p 0 + Real.log (1 + Real.exp (-(max p (-p)))) : ℝ) : EReal) := by
  have hc : Ideal.cmp .une (p : EReal) (p : EReal) = 0#1 := by simp [Ideal.cmp]
  have hpos : ¬ (1 + Real.exp (-(max p (-p))) ≤ 0) := by
    have := Real.exp_pos (-(max p (-p))); linarith
  unfold softplus
  rw [z_eq, ← EReal.coe_sub, sub_zero, hc, ValueIdx.select_zero, ← EReal.coe_neg, coe_max, coe_max,
    ← EReal.coe_neg, Ideal.exp_coe, Ideal.log1p, ← EReal.coe_one, ← EReal.coe_add, Ideal.log_coe,
    if_neg hpos, ← EReal.coe_add]

/-- For a real parameter the lengthscale is a positive real. -/
theorem lengthscale_pos (p : ℝ) : ∃ r : ℝ, 0 < r ∧ lengthscale (p : EReal) = (r : EReal) := by
  -- The real number: the positive dyadic 10995116 * 2^(-40), plus max p 0 ≥ 0, plus log (1 + exp (-|p|)) ≥ 0
  -- (the argument of the logarithm is at least 1).
  refine ⟨10995116 * (2:ℝ)^(-40 : ℤ) + (max p 0 + Real.log (1 + Real.exp (-(max p (-p))))), ?_, ?_⟩
  · have h1 : (0:ℝ) < 10995116 * (2:ℝ)^(-40 : ℤ) := by positivity
    have h2 : (0:ℝ) ≤ max p 0 := le_max_right _ _
    have h3 : (0:ℝ) ≤ Real.log (1 + Real.exp (-(max p (-p)))) :=
      Real.log_nonneg (by have := Real.exp_pos (-(max p (-p))); linarith)
    linarith
  · unfold lengthscale
    rw [lit_eps, softplus_coe, ← EReal.coe_add]

/-! ### The two exponents agree over the reals -/

/-- With c = 1 / (r * sqrt 2), c * c = (1/2) * (1 / (r * r)), because (sqrt 2) * (sqrt 2) = 2. -/
theorem sq_scale (r : ℝ) (hr : r ≠ 0) :
    (1 / (r * Real.sqrt 2)) * (1 / (r * Real.sqrt 2)) = (1/2) * (1 / (r * r)) := by
  have hs : Real.sqrt 2 * Real.sqrt 2 = 2 := Real.mul_self_sqrt (by norm_num)
  rw [div_mul_div_comm, one_mul,
    show r * Real.sqrt 2 * (r * Real.sqrt 2) = (r * r) * (Real.sqrt 2 * Real.sqrt 2) by ring, hs]
  field_simp

/-- The sum of the kernel's two exponents is the reference's exponent: each square
    (a c - x c)^2 is (a - x)^2 c^2, and c^2 = (1/2) / r^2. -/
theorem real_exponent (a x0 g x1 r0 r1 : ℝ) (h0 : 0 < r0) (h1 : 0 < r1) :
    (0 - (a * (1 / (r0 * Real.sqrt 2)) - x0 * (1 / (r0 * Real.sqrt 2)))
          * (a * (1 / (r0 * Real.sqrt 2)) - x0 * (1 / (r0 * Real.sqrt 2))))
      + (0 - (g * (1 / (r1 * Real.sqrt 2)) - x1 * (1 / (r1 * Real.sqrt 2)))
          * (g * (1 / (r1 * Real.sqrt 2)) - x1 * (1 / (r1 * Real.sqrt 2))))
    = -(1/2) * (0 + ((a - x0) * (a - x0) * (1 / (r0 * r0)) + (g - x1) * (g - x1) * (1 / (r1 * r1)))) := by
  have e0 := sq_scale r0 h0.ne'
  have e1 := sq_scale r1 h1.ne'
  generalize 1 / (r0 * Real.sqrt 2) = c0 at e0 ⊢
  generalize 1 / (r1 * Real.sqrt 2) = c1 at e1 ⊢
  have : (0 - (a * c0 - x0 * c0) * (a * c0 - x0 * c0)) + (0 - (g * c1 - x1 * c1) * (g * c1 - x1 * c1))
      = -((a - x0) * (a - x0) * (c0 * c0)) + -((g - x1) * (g - x1) * (c1 * c1)) := by ring
  rw [this, e0, e1]; ring

/-- For a positive real r the rescaling factor is the real number 1 / (r * sqrt 2): sqrt 2 is the real
    square root (2 is not negative), the product r * sqrt 2 is a nonzero real, and division by a nonzero
    real is multiplication by its reciprocal. -/
theorem scale_coe (r : ℝ) (hr : 0 < r) : scale (r : EReal) = ((1 / (r * Real.sqrt 2) : ℝ) : EReal) := by
  have hne : r * Real.sqrt 2 ≠ 0 := (mul_pos hr (Real.sqrt_pos.mpr (by norm_num))).ne'
  unfold scale
  rw [lit_one, lit_two, Ideal.sqrt_coe, if_neg (by norm_num), ← EReal.coe_mul, Ideal.div_coe hne,
    ← EReal.coe_mul, one_mul]

/-- The kernel's product of two one-dimensional factors is the reference's weight. -/
theorem weight_eq (a x0 g x1 r0 r1 : ℝ) (h0 : 0 < r0) (h1 : 0 < r1) :
    Ideal.exp (z - ((a : EReal) * scale r0 - (x0 : EReal) * scale r0) * ((a : EReal) * scale r0 - (x0 : EReal) * scale r0))
      * Ideal.exp (z - ((g : EReal) * scale r1 - (x1 : EReal) * scale r1) * ((g : EReal) * scale r1 - (x1 : EReal) * scale r1))
    = Ideal.exp (Ideal.ofBits .f32 0xBF000000#32
        * (z + (Ideal.div (((a : EReal) - x0) * ((a : EReal) - x0)) ((r0 : EReal) * r0)
              + Ideal.div (((g : EReal) - x1) * ((g : EReal) - x1)) ((r1 : EReal) * r1)))) := by
  -- Every subterm is a real number: the rescaling factors, the literal -1/2 and the zero word are reals,
  -- the denominators r0 * r0 and r1 * r1 are nonzero reals, and products, differences and sums of reals
  -- are reals. Under one inclusion the claim is exp u * exp v = exp w with u + v = w.
  rw [scale_coe r0 h0, scale_coe r1 h1, lit_neg_half, z_eq]
  simp only [← EReal.coe_mul, ← EReal.coe_sub, ← EReal.coe_add]
  rw [Ideal.div_coe (mul_self_ne_zero.mpr h0.ne'), Ideal.div_coe (mul_self_ne_zero.mpr h1.ne')]
  simp only [← EReal.coe_mul, ← EReal.coe_sub, ← EReal.coe_add, Ideal.exp_coe]
  rw [← Real.exp_add, real_exponent a x0 g x1 r0 r1 h0 h1]

end Cert.Rbf

end
-- ==== Proof.KernelHostIn.lean ====
/-
  What the region finds in its four input arrays, entry by entry.

  Before the region the host computes the lengthscales l_k = 1e-5 + softplus p_k, the rescaling factors
  c_k = 1 / (l_k * sqrt 2), and from them: the time grid times c_0 (with a trailing unit axis), the spatial grid times c_1,
  the context coordinates times c (coordinate d by c_d) with the last two axes exchanged, and the values z in the
  narrower float format, which on extended reals is z itself.
-/
import proofs.«130686_g86251533238888_cont_sun_c4_453_6_alg».proof.Proof.Gen.KernelIdeal.Frame
import proofs.«130686_g86251533238888_cont_sun_c4_453_6_alg».proof.Proof.RbfAlgebra
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostIn

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! The five argument arrays and the four arrays the region reads, each named at its literal type. -/

/-- The context coordinates x : [8, 2048, 2]. -/
abbrev coordsArg (c : Dev nD) : S8x2048x2.Idx → EReal := m ((c : Thread nD τ).loc main_arg0)
/-- The context values z : [8, 2048, 64]. -/
abbrev valuesArg (c : Dev nD) : S8x2048x64.Idx → EReal := m ((c : Thread nD τ).loc main_arg1)
/-- The time grid : [8, 32]. -/
abbrev timeArg (c : Dev nD) : S8x32.Idx → EReal := m ((c : Thread nD τ).loc main_arg2)
/-- The spatial grid : [64, 1]. -/
abbrev placeArg (c : Dev nD) : S64x1.Idx → EReal := m ((c : Thread nD τ).loc main_arg3)
/-- The lengthscale parameters : [2]. -/
abbrev paramArg (c : Dev nD) : S2.Idx → EReal := m ((c : Thread nD τ).loc main_arg4)

/-- The rescaled time grid the region reads : [8, 32, 1]. -/
abbrev scaledTime (c : Dev nD) : S8x32x1.Idx → EReal := V m c main_v13
/-- The rescaled spatial grid : [64, 1]. -/
abbrev scaledPlace (c : Dev nD) : S64x1.Idx → EReal := V m c main_v19
/-- The rescaled coordinates, transposed : [8, 2, 2048]. -/
abbrev scaledCoords (c : Dev nD) : S8x2x2048.Idx → EReal := V m c main_v23
/-- The values in the narrower format : [8, 2048, 64]. -/
abbrev narrowValues (c : Dev nD) : S8x2048x64.Idx → EReal := V m c main_v24

/-! ## The host operations' terms, over arrays of literal types -/

/-- softplus of the parameter vector, operation by operation as the host computes it (its 14 operations): the zero
    word broadcast, max p 0, p - 0, the test p - 0 ≠ p - 0, p + 0, |p - 0|, its negation, exp, log1p, the sum, the
    selection. -/
def softplusVec (p : FVec Ideal S2 .f32) : FVec Ideal S2 .f32 :=
  select (cmpf .une (subf p (broadcastInDim S2 ![] bcast_S_S2 (constant (F := Ideal) S_ .f32 0x00000000#32)))
      (subf p (broadcastInDim S2 ![] bcast_S_S2 (constant (F := Ideal) S_ .f32 0x00000000#32))))
    (addf p (broadcastInDim S2 ![] bcast_S_S2 (constant (F := Ideal) S_ .f32 0x00000000#32)))
    (addf (maximumf p (broadcastInDim S2 ![] bcast_S_S2 (constant (F := Ideal) S_ .f32 0x00000000#32)))
      (Host.log1p (Host.exp (Host.negf (Host.absf
        (subf p (broadcastInDim S2 ![] bcast_S_S2 (constant (F := Ideal) S_ .f32 0x00000000#32))))))))

/-- The vector of rescaling factors: 1 / ((1e-5 + softplus p) * sqrt 2), entry by entry. -/
def factorVec (p : FVec Ideal S2 .f32) : FVec Ideal S2 .f32 :=
  Host.divf (broadcastInDim S2 ![] bcast_S_S2 (constant (F := Ideal) S_ .f32 0x3F800000#32))
    (mulf (addf (broadcastInDim S2 ![] bcast_S_S2 (constant (F := Ideal) S_ .f32 0x3727C5AC#32)) (softplusVec p))
      (broadcastInDim S2 ![] bcast_S_S2 (id (Host.sqrt (constant (F := Ideal) S_ .f32 0x40000000#32)))))

/-- The factor vector at k is the factor of the lengthscale of parameter k: every operation acts entry by entry, and
    on extended reals each is the operation the scalar definitions spell. -/
theorem factorVec_apply (p : FVec Ideal S2 .f32) (k : Fin 2) :
    factorVec p (ix1 k) = Cert.Rbf.scale (Cert.Rbf.lengthscale (p (ix1 k))) := rfl

/-- Entry o of a [2] vector as a scalar array: the slice [o : o + 1] recast to rank 0 reads entry o. -/
theorem entry_scalar_apply (x : FVec Ideal S2 .f32) (o : Fin 2) (h : S2.Slices ![o.val] S1) (j : S_.Idx) :
    shapeCast S_ (extractStridedSlice S1 ![o.val] x h) shapeCasts_S1_S_ j = x (ix1 o) := by
  refine (shapeCast_apply _ shapeCasts_S1_S_ j (ix1 (0 : Fin 1)) ?_).trans ?_
  · -- both shapes have one entry, so both row-major positions are 0
    have h1 := (S1.rowMajor (ix1 (0 : Fin 1))).isLt
    have h0 := (S_.rowMajor j).isLt
    have e1 : S1.numel = 1 := by decide
    have e0 : S_.numel = 1 := by decide
    omega
  refine extractStridedSlice_apply ![o.val] x h (ix1 (0 : Fin 1)) (ix1 o) fun a => ?_
  match a with
  | ⟨0, _⟩ => rfl

/-- The rescaled time grid over a factor vector f: the grid times entry 0 of f, with a trailing unit axis. -/
def timeTerm (tg : FVec Ideal S8x32 .f32) (f : FVec Ideal S2 .f32) : FVec Ideal S8x32x1 .f32 :=
  broadcastInDim S8x32x1 ![0, 1] bcast_S8x32_S8x32x1_0_1
    (mulf tg (broadcastInDim S8x32 ![] bcast_S_S8x32
      (shapeCast S_ (extractStridedSlice S1 ![0] f slices_S2_S1_0) shapeCasts_S1_S_)))

theorem timeTerm_apply (tg : FVec Ideal S8x32 .f32) (f : FVec Ideal S2 .f32) (b : Fin 8) (t : Fin 32) (u : Fin 1) :
    timeTerm tg f (ix3 b t u) = tg (ix2 b t) * f (ix1 (0 : Fin 2)) := by
  unfold timeTerm
  refine (broadcastInDim_apply ![0, 1] bcast_S8x32_S8x32x1_0_1 _ (ix3 b t u) (ix2 b t) fun a => ?_).trans ?_
  · match a with
    | ⟨0, _⟩ => rfl
    | ⟨1, _⟩ => rfl
  rw [mulf_apply]
  exact congrArg (tg (ix2 b t) * ·) (entry_scalar_apply f (0 : Fin 2) slices_S2_S1_0 _)

/-- The rescaled spatial grid over a factor vector f: the grid as a vector times entry 1 of f, with its unit axis back. -/
def placeTerm (g : FVec Ideal S64x1 .f32) (f : FVec Ideal S2 .f32) : FVec Ideal S64x1 .f32 :=
  broadcastInDim S64x1 ![0] bcast_S64_S64x1_0
    (mulf (shapeCast S64 g shapeCasts_S64x1_S64) (broadcastInDim S64 ![] bcast_S_S64
      (shapeCast S_ (extractStridedSlice S1 ![1] f slices_S2_S1_1) shapeCasts_S1_S_)))

theorem placeTerm_apply (g : FVec Ideal S64x1 .f32) (f : FVec Ideal S2 .f32) (s : Fin 64) (u : Fin 1) :
    placeTerm g f (ix2 s u) = g (ix2 s (0 : Fin 1)) * f (ix1 (1 : Fin 2)) := by
  unfold placeTerm
  refine (broadcastInDim_apply ![0] bcast_S64_S64x1_0 _ (ix2 s u) (ix1 s) fun a => ?_).trans ?_
  · match a with
    | ⟨0, _⟩ => rfl
  rw [mulf_apply]
  have e1 : shapeCast S64 g shapeCasts_S64x1_S64 (ix1 s) = g (ix2 s (0 : Fin 1)) := by
    refine shapeCast_apply g shapeCasts_S64x1_S64 (ix1 s) (ix2 s (0 : Fin 1)) ?_
    rw [Shape.rowMajor_val_two, Shape.rowMajor_val_one]
    show s.val * 1 + 0 = s.val
    omega
  rw [e1]
  exact congrArg (g (ix2 s (0 : Fin 1)) * ·) (entry_scalar_apply f (1 : Fin 2) slices_S2_S1_1 _)

/-- The rescaled coordinates over a factor vector f: coordinate d times entry d of f, the last two axes exchanged. -/
def coordsTerm (x : FVec Ideal S8x2048x2 .f32) (f : FVec Ideal S2 .f32) : FVec Ideal S8x2x2048 .f32 :=
  transpose S8x2x2048 [0, 2, 1]
    (mulf x (broadcastInDim S8x2048x2 ![0, 1, 2] bcast_S1x1x2_S8x2048x2_0_1_2
      (broadcastInDim S1x1x2 ![2] bcast_S2_S1x1x2_2 f)))
    transposes_S8x2048x2_S8x2x2048_0_2_1

theorem coordsTerm_apply (x : FVec Ideal S8x2048x2 .f32) (f : FVec Ideal S2 .f32) (b : Fin 8) (d : Fin 2) (n : Fin 2048) :
    coordsTerm x f (ix3 b d n) = x (ix3 b n d) * f (ix1 d) := by
  unfold coordsTerm
  rw [transpose_ix3_021_apply, mulf_apply]
  refine congrArg (x (ix3 b n d) * ·) ?_
  refine (broadcastInDim_apply ![0, 1, 2] bcast_S1x1x2_S8x2048x2_0_1_2 _ (ix3 b n d)
    (ix3 (0 : Fin 1) (0 : Fin 1) d) fun a => ?_).trans ?_
  · match a with
    | ⟨0, _⟩ => rfl
    | ⟨1, _⟩ => rfl
    | ⟨2, _⟩ => rfl
  refine broadcastInDim_apply ![2] bcast_S2_S1x1x2_2 f (ix3 (0 : Fin 1) (0 : Fin 1) d) (ix1 d) fun a => ?_
  match a with
  | ⟨0, _⟩ => rfl

/-- The rescaled time grid at (b, t, 0): the time-grid value times c_0. -/
theorem scaled_time_apply (c : Dev nD) (b : Fin 8) (t : Fin 32) (u : Fin 1) :
    scaledTime m c (ix3 b t u)
      = timeArg m c (ix2 b t) * Cert.Rbf.scale (Cert.Rbf.lengthscale (paramArg m c (ix1 (0 : Fin 2)))) := by
  -- the array is the host operations' composed term over the two arguments it depends on
  have e : scaledTime m c = timeTerm (timeArg m c) (factorVec (paramArg m c)) := by
    dsimp only [scaledTime, timeArg, paramArg, V, V0]
    simp only [hostOps0, hostOps0_1, List.flatten_cons, List.flatten_nil, List.append_nil, List.cons_append, List.nil_append]
    after_results_simp
    rfl
  exact (congrFun e _).trans ((timeTerm_apply _ _ b t u).trans
    (congrArg (timeArg m c (ix2 b t) * ·) (factorVec_apply (paramArg m c) (0 : Fin 2))))

/-- The rescaled spatial grid at (s, 0): the grid value times c_1. -/
theorem scaled_place_apply (c : Dev nD) (s : Fin 64) (u : Fin 1) :
    scaledPlace m c (ix2 s u)
      = placeArg m c (ix2 s (0 : Fin 1)) * Cert.Rbf.scale (Cert.Rbf.lengthscale (paramArg m c (ix1 (1 : Fin 2)))) := by
  have e : scaledPlace m c = placeTerm (placeArg m c) (factorVec (paramArg m c)) := by
    dsimp only [scaledPlace, placeArg, paramArg, V, V0]
    simp only [hostOps0, hostOps0_1, List.flatten_cons, List.flatten_nil, List.append_nil, List.cons_append, List.nil_append]
    after_results_simp
    rfl
  exact (congrFun e _).trans ((placeTerm_apply _ _ s u).trans
    (congrArg (placeArg m c (ix2 s (0 : Fin 1)) * ·) (factorVec_apply (paramArg m c) (1 : Fin 2))))

/-- The rescaled, transposed context coordinates at (b, d, n): coordinate d of context point n times c_d. -/
theorem scaled_coords_apply (c : Dev nD) (b : Fin 8) (d : Fin 2) (n : Fin 2048) :
    scaledCoords m c (ix3 b d n)
      = coordsArg m c (ix3 b n d) * Cert.Rbf.scale (Cert.Rbf.lengthscale (paramArg m c (ix1 d))) := by
  have e : scaledCoords m c = coordsTerm (coordsArg m c) (factorVec (paramArg m c)) := by
    dsimp only [scaledCoords, coordsArg, paramArg, V, V0]
    simp only [hostOps0, hostOps0_1, List.flatten_cons, List.flatten_nil, List.append_nil, List.cons_append, List.nil_append]
    after_results_simp
    rfl
  exact (congrFun e _).trans ((coordsTerm_apply _ _ b d n).trans
    (congrArg (coordsArg m c (ix3 b n d) * ·) (factorVec_apply (paramArg m c) d)))

/-- The values in the narrower format are the values. -/
theorem values_apply (c : Dev nD) (i : S8x2048x64.Idx) : narrowValues m c i = valuesArg m c i := by
  -- the array is the narrowing of z, and narrowing an extended real is the identity
  have e : narrowValues m c = truncf (F := Ideal) .bf16 (valuesArg m c) bitsLt_bf16_f32 := by
    dsimp only [narrowValues, valuesArg, V, V0]
    simp only [hostOps0, hostOps0_1, List.flatten_cons, List.flatten_nil, List.append_nil, List.cons_append, List.nil_append]
    after_results_simp
  exact congrFun e i

end Cert.KernelIdeal.HostIn

end
-- ==== Proof.RefValue.lean ====
/-
  The reference's two results at an index.

  The grid coordinates: entry (b, t, s, 0) is the time-grid value of batch b at time t, entry (b, t, s, 1) the spatial
  grid value s (the reference joins an empty slice, the times and the grid along the last axis).
  The grid values: entry (b, t, s, j) is the sum over the 2048 context points n of the Gaussian weight of grid point
  (time t, place s) against context point n, times the value z (b, n, j); the weight is
  exp (-1/2 * (0 + ((time - x_n0)^2 / l0^2 + (place - x_n1)^2 / l1^2))) with l_k the lengthscale of parameter k. The
  flattened grid row t * 64 + s of the reference's intermediate arrays is read back as (t, s).
-/
import proofs.«130686_g86251533238888_cont_sun_c4_453_6_alg».proof.Proof.Gen.ReferenceIdeal.Read
import proofs.«130686_g86251533238888_cont_sun_c4_453_6_alg».proof.Proof.RbfAlgebra

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- The grid coordinates at (b, t, s, d): the time for d = 0, the place for d = 1. -/
theorem grid_coords_apply (x2 : (⟨S8x32, .f32⟩ : BufTy).Contents (Elt Ideal)) (x3 : (⟨S64x1, .f32⟩ : BufTy).Contents (Elt Ideal))
    (b : Fin 8) (t : Fin 32) (s : Fin 64) (d : Fin 2) :
    val_main_v9 (F := Ideal) x2 x3 (ix4 b t s d) = if d.val = 0 then x2 (ix2 b t) else x3 (ix2 s (0 : Fin 1)) := by
  unfold val_main_v9
  match d with
  | ⟨0, hd⟩ =>
    rw [concatenate_apply_piece (3 : Fin 4) _ _ (ix4 b t s (⟨0, hd⟩ : Fin 2)) 1 (by simp) S8x32x64x1
      (val_main_v8 (F := Ideal) x2) rfl rfl 0 rfl (ix4 b t s (0 : Fin 1))
      (fun a ha => by
        match a with
        | ⟨0, _⟩ => rfl
        | ⟨1, _⟩ => rfl
        | ⟨2, _⟩ => rfl
        | ⟨3, _⟩ => exact absurd rfl ha) rfl]
    rw [val_main_v8_apply, val_main_v6_apply, val_main_v5_apply, if_pos rfl]
    exact congrArg x2 (funext fun a => by match a with | ⟨0, _⟩ => rfl | ⟨1, _⟩ => rfl)
  | ⟨1, hd⟩ =>
    rw [concatenate_apply_piece (3 : Fin 4) _ _ (ix4 b t s (⟨1, hd⟩ : Fin 2)) 2 (by simp) S8x32x64x1
      (val_main_v4 (F := Ideal) x3) rfl rfl 1 rfl (ix4 b t s (0 : Fin 1))
      (fun a ha => by
        match a with
        | ⟨0, _⟩ => rfl
        | ⟨1, _⟩ => rfl
        | ⟨2, _⟩ => rfl
        | ⟨3, _⟩ => exact absurd rfl ha) rfl]
    rw [val_main_v4_apply, val_main_v3_apply, if_neg (by simp)]
    exact congrArg x3 (funext fun a => by match a with | ⟨0, _⟩ => rfl | ⟨1, _⟩ => rfl)

/-- The lengthscale array at an index is the lengthscale of the parameter there. -/
theorem lengthscale_apply (x4 : (⟨S2, .f32⟩ : BufTy).Contents (Elt Ideal)) (i : S2.Idx) :
    val_main_v2 (F := Ideal) x4 i = Cert.Rbf.lengthscale (x4 i) := by
  rw [val_main_v2_apply, val_main_v1_apply, val_main_v0_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply]
  rfl

/-- Row t * 64 + s of the flattened (time x place) grid. -/
abbrev row (t : Fin 32) (s : Fin 64) : Fin 2048 :=
  ⟨t.val * 64 + s.val, by have := t.isLt; have := s.isLt; omega⟩

/-- The context coordinates, broadcast over the grid rows: row r, context point n, coordinate d reads x0 (b, n, d). -/
theorem ctx_apply (x0 : (⟨S8x2048x2, .f32⟩ : BufTy).Contents (Elt Ideal)) (b : Fin 8) (r n : Fin 2048) (d : Fin 2) :
    val_main_v14 (F := Ideal) x0 (ix4 b r n d) = x0 (ix3 b n d) := by
  rw [val_main_v14_apply, val_main_v12_apply]
  exact congrArg x0 (funext fun a => by match a with | ⟨0, _⟩ => rfl | ⟨1, _⟩ => rfl | ⟨2, _⟩ => rfl)

/-- The grid coordinates, flattened to 2048 rows and broadcast over the context points: row t * 64 + s reads the
    coordinates array at (b, t, s, d), because ((b * 2048 + (t * 64 + s)) * 2 + d) splits back into (b, t, s, d). -/
theorem coords_row_apply (x2 : (⟨S8x32, .f32⟩ : BufTy).Contents (Elt Ideal)) (x3 : (⟨S64x1, .f32⟩ : BufTy).Contents (Elt Ideal))
    (b : Fin 8) (t : Fin 32) (s : Fin 64) (n : Fin 2048) (d : Fin 2) :
    val_main_v13 (F := Ideal) x2 x3 (ix4 b (row t s) n d) = val_main_v9 (F := Ideal) x2 x3 (ix4 b t s d) := by
  rw [val_main_v13_apply, val_main_v11_apply, val_main_v10_apply]
  refine congrArg (val_main_v9 (F := Ideal) x2 x3) (funext fun a => Fin.ext ?_)
  have hb := b.isLt; have ht := t.isLt; have hs := s.isLt; have hd := d.isLt
  match a with
  | ⟨0, _⟩ => show ((b.val * 2048 + (t.val * 64 + s.val)) * 2 + d.val) / 4096 = b.val; omega
  | ⟨1, _⟩ => show ((b.val * 2048 + (t.val * 64 + s.val)) * 2 + d.val) / 128 % 32 = t.val; omega
  | ⟨2, _⟩ => show ((b.val * 2048 + (t.val * 64 + s.val)) * 2 + d.val) / 2 % 64 = s.val; omega
  | ⟨3, _⟩ => show ((b.val * 2048 + (t.val * 64 + s.val)) * 2 + d.val) % 2 = d.val; omega

/-- The squared lengthscale, broadcast to every (row, context point): coordinate d reads the square of lengthscale d. -/
theorem lengthscale_sq_apply (x4 : (⟨S2, .f32⟩ : BufTy).Contents (Elt Ideal)) (b : Fin 8) (r n : Fin 2048) (d : Fin 2) :
    val_main_v19 (F := Ideal) x4 (ix4 b r n d)
      = Cert.Rbf.lengthscale (x4 (ix1 d)) * Cert.Rbf.lengthscale (x4 (ix1 d)) := by
  rw [val_main_v19_apply, val_main_v18_apply, val_main_v17_apply]
  have e : idx_main_v18 (idx_main_v19 (ix4 b r n d)) = ix1 d :=
    funext fun a => by match a with | ⟨0, _⟩ => rfl
  rw [e, lengthscale_apply]
  rfl

/-- One coordinate's term of the squared scaled distance. -/
theorem term_apply (x0 : (⟨S8x2048x2, .f32⟩ : BufTy).Contents (Elt Ideal)) (x2 : (⟨S8x32, .f32⟩ : BufTy).Contents (Elt Ideal))
    (x3 : (⟨S64x1, .f32⟩ : BufTy).Contents (Elt Ideal)) (x4 : (⟨S2, .f32⟩ : BufTy).Contents (Elt Ideal))
    (b : Fin 8) (t : Fin 32) (s : Fin 64) (n : Fin 2048) (d : Fin 2) :
    val_main_v20 (F := Ideal) x0 x2 x3 x4 (ix4 b (row t s) n d)
      = Ideal.div ((val_main_v9 (F := Ideal) x2 x3 (ix4 b t s d) - x0 (ix3 b n d))
                    * (val_main_v9 (F := Ideal) x2 x3 (ix4 b t s d) - x0 (ix3 b n d)))
          (Cert.Rbf.lengthscale (x4 (ix1 d)) * Cert.Rbf.lengthscale (x4 (ix1 d))) := by
  rw [val_main_v20_apply, val_main_v16_apply, val_main_v15_apply, coords_row_apply, ctx_apply, lengthscale_sq_apply]
  rfl

/-- The Gaussian weight of grid point (t, s) against context point n. -/
theorem weight_apply (x0 : (⟨S8x2048x2, .f32⟩ : BufTy).Contents (Elt Ideal)) (x2 : (⟨S8x32, .f32⟩ : BufTy).Contents (Elt Ideal))
    (x3 : (⟨S64x1, .f32⟩ : BufTy).Contents (Elt Ideal)) (x4 : (⟨S2, .f32⟩ : BufTy).Contents (Elt Ideal))
    (b : Fin 8) (t : Fin 32) (s : Fin 64) (n : Fin 2048) :
    val_main_v24 (F := Ideal) x0 x2 x3 x4 (ix3 b (row t s) n)
      = Ideal.exp (Ideal.ofBits .f32 0xBF000000#32
          * (Cert.Rbf.z
              + (Ideal.div ((x2 (ix2 b t) - x0 (ix3 b n (0 : Fin 2))) * (x2 (ix2 b t) - x0 (ix3 b n (0 : Fin 2))))
                    (Cert.Rbf.lengthscale (x4 (ix1 (0 : Fin 2))) * Cert.Rbf.lengthscale (x4 (ix1 (0 : Fin 2))))
                + Ideal.div ((x3 (ix2 s (0 : Fin 1)) - x0 (ix3 b n (1 : Fin 2))) * (x3 (ix2 s (0 : Fin 1)) - x0 (ix3 b n (1 : Fin 2))))
                    (Cert.Rbf.lengthscale (x4 (ix1 (1 : Fin 2))) * Cert.Rbf.lengthscale (x4 (ix1 (1 : Fin 2))))))) := by
  rw [val_main_v24_apply, val_main_v23_apply, val_main_v22_apply, val_main_cst_1_apply, val_main_v21_apply,
    val_main_cst_0_apply, Fin.sum_univ_two]
  have e0 : idx_main_v21 (ix3 b (row t s) n) (0 : Fin 2) = ix4 b (row t s) n (0 : Fin 2) :=
    funext fun a => by match a with | ⟨0, _⟩ => rfl | ⟨1, _⟩ => rfl | ⟨2, _⟩ => rfl | ⟨3, _⟩ => rfl
  have e1 : idx_main_v21 (ix3 b (row t s) n) (1 : Fin 2) = ix4 b (row t s) n (1 : Fin 2) :=
    funext fun a => by match a with | ⟨0, _⟩ => rfl | ⟨1, _⟩ => rfl | ⟨2, _⟩ => rfl | ⟨3, _⟩ => rfl
  have g0 : val_main_v9 (F := Ideal) x2 x3 (ix4 b t s (0 : Fin 2)) = x2 (ix2 b t) := by
    rw [grid_coords_apply]; rfl
  have g1 : val_main_v9 (F := Ideal) x2 x3 (ix4 b t s (1 : Fin 2)) = x3 (ix2 s (0 : Fin 1)) := by
    rw [grid_coords_apply]; rfl
  rw [e0, e1, term_apply, term_apply, g0, g1]
  rfl

/-- The grid values at (b, t, s, j). -/
theorem grid_values_apply (x0 : (⟨S8x2048x2, .f32⟩ : BufTy).Contents (Elt Ideal)) (x1 : (⟨S8x2048x64, .f32⟩ : BufTy).Contents (Elt Ideal))
    (x2 : (⟨S8x32, .f32⟩ : BufTy).Contents (Elt Ideal)) (x3 : (⟨S64x1, .f32⟩ : BufTy).Contents (Elt Ideal))
    (x4 : (⟨S2, .f32⟩ : BufTy).Contents (Elt Ideal)) (b : Fin 8) (t : Fin 32) (s : Fin 64) (j : Fin 64) :
    val_main_v26 (F := Ideal) x0 x1 x2 x3 x4 (ix4 b t s j)
      = ∑ n : Fin 2048,
          Ideal.exp (Ideal.ofBits .f32 0xBF000000#32
            * (Cert.Rbf.z
                + (Ideal.div ((x2 (ix2 b t) - x0 (ix3 b n (0 : Fin 2))) * (x2 (ix2 b t) - x0 (ix3 b n (0 : Fin 2))))
                      (Cert.Rbf.lengthscale (x4 (ix1 (0 : Fin 2))) * Cert.Rbf.lengthscale (x4 (ix1 (0 : Fin 2))))
                  + Ideal.div ((x3 (ix2 s (0 : Fin 1)) - x0 (ix3 b n (1 : Fin 2))) * (x3 (ix2 s (0 : Fin 1)) - x0 (ix3 b n (1 : Fin 2))))
                      (Cert.Rbf.lengthscale (x4 (ix1 (1 : Fin 2))) * Cert.Rbf.lengthscale (x4 (ix1 (1 : Fin 2)))))))
          * x1 (ix3 b n j) := by
  rw [val_main_v26_apply, val_main_v25_apply]
  refine Finset.sum_congr rfl fun n _ => ?_
  have hb := b.isLt; have ht := t.isLt; have hs := s.isLt; have hj := j.isLt
  have el : lidx_main_v25 (idx_main_v26 (ix4 b t s j)) n = ix3 b (row t s) n := funext fun a => Fin.ext (by
    match a with
    | ⟨0, _⟩ => show (((b.val * 32 + t.val) * 64 + s.val) * 64 + j.val) / 131072 = b.val; omega
    | ⟨1, _⟩ => show (((b.val * 32 + t.val) * 64 + s.val) * 64 + j.val) / 64 % 2048 = t.val * 64 + s.val; omega
    | ⟨2, _⟩ => rfl)
  have er : ridx_main_v25 (idx_main_v26 (ix4 b t s j)) n = ix3 b n j := funext fun a => Fin.ext (by
    match a with
    | ⟨0, _⟩ => show (((b.val * 32 + t.val) * 64 + s.val) * 64 + j.val) / 131072 = b.val; omega
    | ⟨1, _⟩ => rfl
    | ⟨2, _⟩ => show (((b.val * 32 + t.val) * 64 + s.val) * 64 + j.val) % 64 = j.val; omega)
  rw [el, er, weight_apply]

end Cert.ReferenceIdeal.RefValue

end
-- ==== Proof.Bridge.lean ====
/-
  The two programs compute the same results.

  Coordinates: both results hold, at (b, t, s, 0), the time of batch b at t and, at (b, t, s, 1), the place s.
  Values: at (b, t, s, j) the kernel holds the sum over the context points n of
      (exp (0 - (time * c_0 - x_n0 * c_0)^2) * exp (0 - (place * c_1 - x_n1 * c_1)^2)) * z (b, n, j),   c_k = 1 / (l_k * sqrt 2),
  and the reference the sum of exp (-1/2 * (0 + ((time - x_n0)^2 / l_0^2 + (place - x_n1)^2 / l_1^2))) * z (b, n, j). Under the
  precondition the times, places, coordinates and lengthscale parameters are real numbers and the lengthscales positive
  reals, so the two weights agree term by term; the values z may be anything, being the same factor on both sides.
-/
import proofs.«130686_g86251533238888_cont_sun_c4_453_6_alg».proof.Defs
import proofs.«130686_g86251533238888_cont_sun_c4_453_6_alg».proof.Proof.FiniteInputs
import proofs.«130686_g86251533238888_cont_sun_c4_453_6_alg».proof.Proof.RbfAlgebra
import proofs.«130686_g86251533238888_cont_sun_c4_453_6_alg».proof.Proof.KernelHostIn
import proofs.«130686_g86251533238888_cont_sun_c4_453_6_alg».proof.Proof.KernelResult
import proofs.«130686_g86251533238888_cont_sun_c4_453_6_alg».proof.Proof.RefValue

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Blocks Cert.KernelIdeal.HostIn

/-- The coordinates: the kernel's two joined broadcasts are the reference's three joined pieces, the first empty. -/
theorem coords_eq (tg : S8x32.Idx → EReal) (g : S64x1.Idx → EReal) :
    Cert.KernelIdeal.Result.coordsOut tg g = Cert.ReferenceIdeal.Read.val_main_v9 (F := Ideal) tg g := by
  funext i
  obtain ⟨b, t, s, d, rfl⟩ : ∃ (b : Fin 8) (t : Fin 32) (s : Fin 64) (d : Fin 2), i = ix4 b t s d := ⟨i 0, i 1, i 2, i 3, eq_ix4 i⟩
  rw [Cert.KernelIdeal.Result.coords_entry, Cert.ReferenceIdeal.RefValue.grid_coords_apply]

variable (m : (ℓ : Loc nD τ sig) → Buf (Elt Ideal) ℓ)

/-- The values: entry by entry the kernel's weighted sum is the reference's. -/
theorem values_eq [Cert.Pre_finite_inputs.Facts] (c : Dev nD)
    (hpre : Cert.Pre_finite_inputs.fn (F := Ideal) (coordsArg m c) (valuesArg m c) (timeArg m c) (placeArg m c) (paramArg m c) = fun _ => 1#1) :
    Cert.KernelIdeal.Result.valuesOut (outArr (scaledTime m c) (scaledPlace m c) (scaledCoords m c) (narrowValues m c))
      = Cert.ReferenceIdeal.Read.val_main_v26 (F := Ideal) (coordsArg m c) (valuesArg m c) (timeArg m c) (placeArg m c) (paramArg m c) := by
  obtain ⟨hx, htg, hg, hp⟩ := Cert.Rbf.real_of_finite _ _ _ _ _ hpre
  funext i
  obtain ⟨b, t, s, j, rfl⟩ : ∃ (b : Fin 8) (t : Fin 32) (s : Fin 64) (j : Fin 64), i = ix4 b t s j := ⟨i 0, i 1, i 2, i 3, eq_ix4 i⟩
  rw [Cert.KernelIdeal.Result.values_entry, Cert.ReferenceIdeal.RefValue.grid_values_apply]
  unfold entryAt
  refine Finset.sum_congr rfl fun n _ => ?_
  rw [scaled_time_apply, scaled_place_apply, scaled_coords_apply, scaled_coords_apply, values_apply]
  obtain ⟨a, ha⟩ := htg (ix2 b t)
  obtain ⟨u0, hu0⟩ := hx (ix3 b n (0 : Fin 2))
  obtain ⟨u1, hu1⟩ := hx (ix3 b n (1 : Fin 2))
  obtain ⟨g, hg'⟩ := hg (ix2 s (0 : Fin 1))
  obtain ⟨p0, hp0⟩ := hp (ix1 (0 : Fin 2))
  obtain ⟨p1, hp1⟩ := hp (ix1 (1 : Fin 2))
  obtain ⟨r0, hr0, hl0⟩ := Cert.Rbf.lengthscale_pos p0
  obtain ⟨r1, hr1, hl1⟩ := Cert.Rbf.lengthscale_pos p1
  rw [ha, hu0, hu1, hg', hp0, hp1, hl0, hl1]
  exact congrArg (· * valuesArg m c (ix3 b n j)) (Cert.Rbf.weight_eq a u0 g u1 r0 r1 hr0 hr1)

end Cert.Proof.Bridge

end
-- ==== Proof.lean ====
/-
  The set convolution through time: a smoothing of 2048 context points (a time, a place, and 64 values each) onto a grid
  of 32 times x 64 places, per batch, with the Gaussian weight exp (-1/2 * (dt^2 / l_0^2 + dx^2 / l_1^2)), l_k = 1e-5 +
  softplus p_k. The reference forms all 2048 x 2048 weights per batch and multiplies them with the values. The kernel uses
  that the weight factorises over the two coordinates: after rescaling every coordinate by c_k = 1 / (l_k * sqrt 2) it is
  exp (0 - dt'^2) * exp (0 - dx'^2), so it computes the 32 x 2048 time factors and the 64 x 2048 place factors, rebuilds
  the weights of eight time rows at a time as their products, and multiplies with the values on the matrix unit; the
  narrower float format of the factors and of the values is the identity on extended reals.

  Both programs also return the grid's coordinates (time, place) per grid point, by broadcasts and a join.

  The two agree over the extended reals when the inputs are finite: (sqrt 2)^2 = 2 and exp (u + v) = exp u * exp v make
  the weights equal, entry by entry, once the times, places, coordinates and lengthscale parameters are real numbers (the
  rescaling distributes over a difference of reals, and the positive lengthscale cancels); the values are the same factor
  of the same sum on both sides and need no assumption. The modules: the weights' algebra on one entry (RbfAlgebra), real
  numbers from the precondition (FiniteInputs), the kernel body's stored block at an entry (KernelEntry), the blocks as
  one function of the region's arrays and the array after the run (KernelBlocks), the region's arrays from the arguments
  (KernelHostIn), the kernel's run and its results at an index (KernelResult), the reference's results at an index
  (RefValue), and the two sides joined (Bridge). The three frames are the two kernels' frame runs and the reference's run
  with its results dropped; the idealization rewrote nothing.
-/
import proofs.«130686_g86251533238888_cont_sun_c4_453_6_alg».proof.Defs
import proofs.«130686_g86251533238888_cont_sun_c4_453_6_alg».proof.Proof.Gen.Kernel
import proofs.«130686_g86251533238888_cont_sun_c4_453_6_alg».proof.Proof.Gen.Kernel.Skeleton
import proofs.«130686_g86251533238888_cont_sun_c4_453_6_alg».proof.Proof.Gen.Kernel.Launch
import proofs.«130686_g86251533238888_cont_sun_c4_453_6_alg».proof.Proof.Gen.Kernel.Points
import proofs.«130686_g86251533238888_cont_sun_c4_453_6_alg».proof.Proof.Gen.Kernel.Frame
import proofs.«130686_g86251533238888_cont_sun_c4_453_6_alg».proof.Proof.Gen.KernelIdeal
import proofs.«130686_g86251533238888_cont_sun_c4_453_6_alg».proof.Proof.Gen.KernelIdeal.Skeleton
import proofs.«130686_g86251533238888_cont_sun_c4_453_6_alg».proof.Proof.Gen.KernelIdeal.Launch
import proofs.«130686_g86251533238888_cont_sun_c4_453_6_alg».proof.Proof.Gen.KernelIdeal.Points
import proofs.«130686_g86251533238888_cont_sun_c4_453_6_alg».proof.Proof.Gen.KernelIdeal.Frame
import proofs.«130686_g86251533238888_cont_sun_c4_453_6_alg».proof.Proof.Gen.ReferenceIdeal
import proofs.«130686_g86251533238888_cont_sun_c4_453_6_alg».proof.Proof.Gen.ReferenceIdeal.Run
import proofs.«130686_g86251533238888_cont_sun_c4_453_6_alg».proof.Proof.Gen.ReferenceIdeal.Read
import proofs.«130686_g86251533238888_cont_sun_c4_453_6_alg».proof.Proof.Gen.Pre_finite_inputs
import proofs.«130686_g86251533238888_cont_sun_c4_453_6_alg».proof.Proof.KernelResult
import proofs.«130686_g86251533238888_cont_sun_c4_453_6_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The two runs end with equal coordinates and equal values. -/
theorem algebraic : Cert.algebraic_KernelIdeal_ReferenceIdeal := by
  intro m ρ m' ρ' hpre hagree
  refine ⟨fun c => Cert.KernelIdeal.Result.coordsOut (Cert.KernelIdeal.HostIn.timeArg m c) (Cert.KernelIdeal.HostIn.placeArg m c),
    fun c => Cert.KernelIdeal.Result.valuesOut (Cert.KernelIdeal.Blocks.outArr (Cert.KernelIdeal.HostIn.scaledTime m c)
      (Cert.KernelIdeal.HostIn.scaledPlace m c) (Cert.KernelIdeal.HostIn.scaledCoords m c) (Cert.KernelIdeal.HostIn.narrowValues m c)),
    Cert.KernelIdeal.Result.run m ρ, ?_⟩
  refine (θ_run Cert.ReferenceIdeal.defs _ _).mono (fun r h c => ⟨?_, ?_, (h c).2.2⟩)
    (Cert.ReferenceIdeal.Value.run (F := Ideal) m' ρ')
  · refine (h c).1.trans ((Cert.ReferenceIdeal.Read.val_main_v9_eq _ _).trans ?_)
    rw [(hagree c).2.2.1, (hagree c).2.2.2.1]
    exact (Cert.Proof.Bridge.coords_eq _ _).symm
  · refine (h c).2.1.trans ((Cert.ReferenceIdeal.Read.val_main_v26_eq m' c).trans ?_)
    rw [(hagree c).1, (hagree c).2.1, (hagree c).2.2.1, (hagree c).2.2.2.1, (hagree c).2.2.2.2]
    exact (Cert.Proof.Bridge.values_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
